-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel

variable [Facts]

def fn {F : FTy → Type} [FloatOps F] (main_arg0 : FVec F S64x64x112x112 .f32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  main_v3
-- ==== Kernel.lean ====
abbrev S64x64x112x112 : Shape := ⟨4, ![64, 64, 112, 112]⟩
abbrev S64x1 : Shape := ⟨2, ![64, 1]⟩
abbrev S64x64 : Shape := ⟨2, ![64, 64]⟩
abbrev S1x64x112x112 : Shape := ⟨4, ![1, 64, 112, 112]⟩
abbrev S64x112x112 : Shape := ⟨3, ![64, 112, 112]⟩
abbrev S64x112 : Shape := ⟨2, ![64, 112]⟩
abbrev S64x112x1 : Shape := ⟨3, ![64, 112, 1]⟩
abbrev S64x1x1 : Shape := ⟨3, ![64, 1, 1]⟩
abbrev S64x12544 : Shape := ⟨2, ![64, 12544]⟩
abbrev S12544x64 : Shape := ⟨2, ![12544, 64]⟩
abbrev S_ : Shape := ⟨0, ![]⟩
abbrev S1x64 : Shape := ⟨2, ![1, 64]⟩

abbrev nBuf : Space → Nat
  | .hbm => 93
  | .vmem => 10
  | .smem => 0
  | _ => 0

abbrev bufTy : (tb : Table) → Fin (tcTables nBuf tb) → BufTy
  | .hbm, ⟨0, _⟩ => ⟨S64x64x112x112, .f32⟩
  | .hbm, ⟨1, _⟩ => ⟨S64x1, .f32⟩
  | .hbm, ⟨2, _⟩ => ⟨S64x64, .f32⟩
  | .hbm, ⟨3, _⟩ => ⟨S_, .f32⟩
  | .hbm, ⟨4, _⟩ => ⟨S64x1, .f32⟩
  | .hbm, ⟨5, _⟩ => ⟨S64x1, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S1x64, .f32⟩
  | .hbm, ⟨21, _⟩ => ⟨S64x64, .f32⟩
  | .hbm, ⟨22, _⟩ => ⟨S64x64, .f32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S_, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S_, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S64x64, .f32⟩
  | .hbm, ⟨80, _⟩ => ⟨S_, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S_, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S64x1, .f32⟩
  | .hbm, ⟨92, _⟩ => ⟨S64x64x112x112, .f32⟩
  | .local _ .vmem, ⟨0, _⟩ => ⟨S1x64x112x112, .f32⟩
  | .local _ .vmem, ⟨1, _⟩ => ⟨S1x64x112x112, .f32⟩
  | .local _ .vmem, ⟨2, _⟩ => ⟨S64x1, .f32⟩
  | .local _ .vmem, ⟨3, _⟩ => ⟨S64x64, .f32⟩
  | .local _ .vmem, ⟨4, _⟩ => ⟨S1x64x112x112, .f32⟩
  | .local _ .vmem, ⟨5, _⟩ => ⟨S1x64x112x112, .f32⟩
  | .local _ .vmem, ⟨6, _⟩ => ⟨S64x64, .f32⟩
  | .local _ .vmem, ⟨7, _⟩ => ⟨S64x1, .f32⟩
  | .local _ .vmem, ⟨8, _⟩ => ⟨S1x64x112x112, .f32⟩
  | .local _ .vmem, ⟨9, _⟩ => ⟨S1x64x112x112, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_c : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_call0_v6 : Ref sig .tc := ⟨.hbm, 31, rfl⟩
abbrev main_call0_cst_0 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x112x112 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x1_S64x1_0_0 : ∀ a, (![0, 0] : Fin 2 → Nat) a + S64x1.size a ≤ S64x1.size a
  h_S64x1 : 0 < S64x1.numel
  inb_S64x64_S64x64_0_0 : ∀ a, (![0, 0] : Fin 2 → Nat) a + S64x64.size a ≤ S64x64.size a
  h_S64x64 : 0 < S64x64.numel
  inb_S1x64x112x112_S1x64x112x112_0_0_0_0 : ∀ a, (![0, 0, 0, 0] : Fin 4 → Nat) a + S1x64x112x112.size a ≤ S1x64x112x112.size a
  h_S1x64x112x112 : 0 < S1x64x112x112.numel
  shapeCasts_S1x64x112x112_S64x112x112 : S1x64x112x112.ShapeCasts S64x112x112
  reduces_S64x112x112_S64x112 : S64x112x112.Reduces [2] S64x112
  shapeCasts_S64x112_S64x112x1 : S64x112.ShapeCasts S64x112x1
  reduces_S64x112x1_S64x1 : S64x112x1.Reduces [1] S64x1
  shapeCasts_S64x1_S64x1x1 : S64x1.ShapeCasts S64x1x1
  shapeCasts_S64x1_S64x1 : S64x1.ShapeCasts S64x1
  shapeCasts_S64x1x1_S64x1 : S64x1x1.ShapeCasts S64x1
  shapeCasts_S64x112x112_S64x12544 : S64x112x112.ShapeCasts S64x12544
  bitsLt_bf16_f32 : FTy.bits .bf16 < FTy.bits .f32
  transposes_S64x12544_p1_0_S12544x64 : S64x12544.Transposes [1, 0] S12544x64
  shapeCasts_S64x64_S64x64 : S64x64.ShapeCasts S64x64
  bcast_S_S64x1 : S_.BroadcastsInDim S64x1 (![] : Fin 0 → Fin S64x1.rank)
  bcast_S_S64x64 : S_.BroadcastsInDim S64x64 (![] : Fin 0 → Fin S64x64.rank)
  transposes_S64x1_S1x64_1_0 : S64x1.Transposes [1, 0] S1x64
  reducesTo_S64x64_S_d0_1 : S64x64.ReducesTo [0, 1] S_
  h_S_ : 0 < S_.numel
  broadcasts_S64x1_S64x12544 : S64x1.Broadcasts S64x12544
  shapeCasts_S64x12544_S64x112x112 : S64x12544.ShapeCasts S64x112x112
  shapeCasts_S64x112x112_S1x64x112x112 : S64x112x112.ShapeCasts S1x64x112x112
  dot_S64x12544_S12544x64_S64x64_1_0_0_1_n_n_wf : DotDims.WF S64x12544 S12544x64 S64x64 [1] [0] [0] [1] [] []
  dot_S64x1_S1x64_S64x64_1_0_0_1_n_n_wf : DotDims.WF S64x1 S1x64 S64x64 [1] [0] [0] [1] [] []
  dot_S64x64_S64x64_S64x64_1_0_0_1_n_n_wf : DotDims.WF S64x64 S64x64 S64x64 [1] [0] [0] [1] [] []
  dot_S64x64_S64x1_S64x1_1_0_0_1_n_n_wf : DotDims.WF S64x64 S64x1 S64x1 [1] [0] [0] [1] [] []
  dot_S64x64_S64x12544_S64x12544_1_0_0_1_n_n_wf : DotDims.WF S64x64 S64x12544 S64x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x112x112.size a ≤ S64x64x112x112.size a
  hwx0_0 : ∀ i : grid0.Coords, EltTy.bits .f32 = 32 ∨ (Rect.block (s := S64x64x112x112) S1x64x112x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x112x112.size a ≤ S64x64x112x112.size a
  hwx1_0 : ∀ i : grid1.Coords, EltTy.bits .f32 = 32 ∨ (Rect.block (s := S64x64x112x112) S1x64x112x112.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x112x112.size a ≤ S64x64x112x112.size a
  hwx1_3 : ∀ i : grid1.Coords, EltTy.bits .f32 = 32 ∨ (Rect.block (s := S64x64x112x112) S1x64x112x112.size (cc1_transform_3 i) (hinb1_3 i)).WholeWords (EltTy.packing .f32)

variable [Facts₀]

def dot_S64x12544_S12544x64_S64x64_1_0_0_1_n_n : DotDims S64x12544 S12544x64 S64x64 where
  lhsContracting := [1]
  rhsContracting := [0]
  lhsNonContracting := [0]
  rhsNonContracting := [1]
  lhsBatch := []
  rhsBatch := []
  wf := dot_S64x12544_S12544x64_S64x64_1_0_0_1_n_n_wf
def dot_S64x1_S1x64_S64x64_1_0_0_1_n_n : DotDims S64x1 S1x64 S64x64 where
  lhsContracting := [1]
  rhsContracting := [0]
  lhsNonContracting := [0]
  rhsNonContracting := [1]
  lhsBatch := []
  rhsBatch := []
  wf := dot_S64x1_S1x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x12544_S64x12544_1_0_0_1_n_n : DotDims S64x64 S64x12544 S64x12544 where
  lhsContracting := [1]
  rhsContracting := [0]
  lhsNonContracting := [0]
  rhsNonContracting := [1]
  lhsBatch := []
  rhsBatch := []
  wf := dot_S64x64_S64x12544_S64x12544_1_0_0_1_n_n_wf

abbrev win0_0 : Pipeline.Window sig grid0 :=
  Pipeline.Window.ofSpec (Memref.whole main_arg0) S1x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x64x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x64x112x112.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64x802816 : Shape := ⟨2, ![64, 802816]⟩
abbrev S_ : Shape := ⟨0, ![]⟩
abbrev S64 : Shape := ⟨1, ![64]⟩
abbrev S64x1 : Shape := ⟨2, ![64, 1]⟩
abbrev S64x64 : Shape := ⟨2, ![64, 64]⟩
abbrev S802816x64 : Shape := ⟨2, ![802816, 64]⟩

abbrev nBuf : Space → Nat
  | .hbm => 98
  | .vmem => 0
  | .smem => 0
  | _ => 0

abbrev bufTy : (tb : Table) → Fin (tcTables nBuf tb) → BufTy
  | .hbm, ⟨0, _⟩ => ⟨S64x64x112x112, .f32⟩
  | .hbm, ⟨1, _⟩ => ⟨S64x64x112x112, .f32⟩
  | .hbm, ⟨2, _⟩ => ⟨S64x802816, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S64x802816, .f32⟩
  | .hbm, ⟨10, _⟩ => ⟨S64x802816, .f32⟩
  | .hbm, ⟨11, _⟩ => ⟨S64x64, .i32⟩
  | .hbm, ⟨12, _⟩ => ⟨S64x64, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S802816x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S_, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S_, .f32⟩
  | .hbm, ⟨79, _⟩ => ⟨S64x64, .f32⟩
  | .hbm, ⟨80, _⟩ => ⟨S64x64, .f32⟩
  | .hbm, ⟨81, _⟩ => ⟨S64x64, .f32⟩
  | .hbm, ⟨82, _⟩ => ⟨S64x64, .f32⟩
  | .hbm, ⟨83, _⟩ => ⟨S64x64, .f32⟩
  | .hbm, ⟨84, _⟩ => ⟨S_, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64x64, .f32⟩
  | .hbm, ⟨94, _⟩ => ⟨S64x64, .f32⟩
  | .hbm, ⟨95, _⟩ => ⟨S64x802816, .f32⟩
  | .hbm, ⟨96, _⟩ => ⟨S64x64x112x112, .f32⟩
  | .hbm, ⟨97, _⟩ => ⟨S64x64x112x112, .f32⟩
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  transposes_S64x64x112x112_S64x64x112x112_1_0_2_3 : S64x64x112x112.Transposes [1, 0, 2, 3] S64x64x112x112
  shapeCasts_S64x64x112x112_S64x802816 : S64x64x112x112.ShapeCasts S64x802816
  reducesTo_S64x802816_S64_d1 : S64x802816.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x802816_0_1 : S64x1.BroadcastsInDim S64x802816 (![0, 1] : Fin 2 → Fin S64x802816.rank)
  bcast_S_S64x64 : S_.BroadcastsInDim S64x64 (![] : Fin 0 → Fin S64x64.rank)
  transposes_S64x802816_S802816x64_1_0 : S64x802816.Transposes [1, 0] S802816x64
  reducesTo_S64x64_S_d0_1 : S64x64.ReducesTo [0, 1] S_
  shapeCasts_S64x802816_S64x64x112x112 : S64x802816.ShapeCasts S64x64x112x112
  dot_S64x802816_S802816x64_S64x64_1_0_0_1_n_n_wf : DotDims.WF S64x802816 S802816x64 S64x64 [1] [0] [0] [1] [] []
  dot_S64x64_S64x64_S64x64_1_0_0_1_n_n_wf : DotDims.WF S64x64 S64x64 S64x64 [1] [0] [0] [1] [] []
  dot_S64x64_S64x802816_S64x802816_1_0_0_1_n_n_wf : DotDims.WF S64x64 S64x802816 S64x802816 [1] [0] [0] [1] [] []

variable [Facts₀]

def dot_S64x802816_S802816x64_S64x64_1_0_0_1_n_n : DotDims S64x802816 S802816x64 S64x64 where
  lhsContracting := [1]
  rhsContracting := [0]
  lhsNonContracting := [0]
  rhsNonContracting := [1]
  lhsBatch := []
  rhsBatch := []
  wf := dot_S64x802816_S802816x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x802816_S64x802816_1_0_0_1_n_n : DotDims S64x64 S64x802816 S64x802816 where
  lhsContracting := [1]
  rhsContracting := [0]
  lhsNonContracting := [0]
  rhsNonContracting := [1]
  lhsBatch := []
  rhsBatch := []
  wf := dot_S64x64_S64x802816_S64x802816_1_0_0_1_n_n_wf

class Facts : Prop extends Facts₀ where

variable [Facts]
-- ==== Proof.Consts.lean ====
/-
  The float literals that the two programs spell, as the real numbers their bit patterns denote when floats are read
  as extended reals: the element count 802816 = 64·112·112, the regulariser ε = 10995116 / 2^40 (the single-precision
  neighbour of 10^-5, strictly positive), and the iteration's coefficients 1, 3/2 and 1/2.  All are finite, which is what
  lets the whole computation be carried out in the real numbers.
-/
import Idealize.ShloMosaic.PureOps.Ideal

noncomputable section

namespace Cert.Whiten.Consts

open Idealize.ShloMosaic

/-- The regulariser as a real number: the single-precision value nearest 10^-5. -/
def eps : ℝ := 10995116 / 1099511627776

theorem eps_pos : 0 < eps := by unfold eps; norm_num

/-- The pattern of the element count denotes 802816. -/
theorem ofBits_count : Ideal.ofBits .f32 0x49440000#32 = ((802816 : ℝ) : EReal) := by
  simp [Ideal.ofBits, Ideal.ieee, -EReal.coe_mul]; norm_num

/-- The pattern of the regulariser denotes ε. -/
theorem ofBits_eps : Ideal.ofBits .f32 0x3727C5AC#32 = ((eps : ℝ) : EReal) := by
  simp [Ideal.ofBits, Ideal.ieee, -EReal.coe_mul, eps]; norm_num

/-- The pattern of one denotes 1. -/
theorem ofBits_one : Ideal.ofBits .f32 0x3F800000#32 = ((1 : ℝ) : EReal) := by
  simp [Ideal.ofBits, Ideal.ieee, -EReal.coe_mul]; norm_num

/-- The pattern of three halves denotes 3/2. -/
theorem ofBits_threeHalves : Ideal.ofBits .f32 0x3FC00000#32 = ((3 / 2 : ℝ) : EReal) := by
  simp [Ideal.ofBits, Ideal.ieee, -EReal.coe_mul]; norm_num

/-- The pattern of one half denotes 1/2. -/
theorem ofBits_half : Ideal.ofBits .f32 0x3F000000#32 = ((1 / 2 : ℝ) : EReal) := by
  simp [Ideal.ofBits, Ideal.ieee, -EReal.coe_mul]; norm_num

/-- The zero pattern denotes 0. -/
theorem ofBits_zero : Ideal.ofBits .f32 0x00000000#32 = ((0 : ℝ) : EReal) := by
  simp [Ideal.ofBits, Ideal.ieee]

end Cert.Whiten.Consts

end
-- ==== Proof.Spec.lean ====
/-
  The whitening transform over the real numbers, as one function of the input.

  The input is a real array X(b, c, h, w): 64 images, 64 channels, 112 rows, 112 columns; a channel has
  N = 64·112·112 = 802816 entries.  With  mean(c) = (Σ_{b,h,w} X(b,c,h,w)) / N,  the regularised covariance is
      cov(i,j) = ε·δ(i,j) + (Σ_{b,h,w} (X(b,i,h,w) − mean i)(X(b,j,h,w) − mean j)) / N,
  which expands, because Σ (X − mean) = 0 channel by channel, to the raw-moment form
      covK(i,j) = (ε·δ(i,j) + (Σ_{b,h,w} X(b,i,h,w)·X(b,j,h,w)) / N) − mean i · mean j.
  The trace of cov is at least 64·ε > 0, so r = 1 / tr(cov) is a positive real.  Five Newton–Schulz steps
      P ↦ (3/2)·P − (1/2)·P³·(cov·r),   from P = I,
  then a scaling by √r give the whitening matrix, and the result is  Σ_k W(c,k)·(X(b,k,h,w) − mean k),  which by
  distributivity in the reals is  (Σ_k W(c,k)·X(b,k,h,w)) − Σ_k W(c,k)·mean k.
-/
import proofs.«117467_j51127290691774_1_alg».proof.Proof.Consts

noncomputable section

namespace Cert.Whiten.Spec

open Cert.Whiten.Consts

/-- A real input array: image, channel, row, column. -/
abbrev Arr : Type := Fin 64 → Fin 64 → Fin 112 → Fin 112 → ℝ
/-- A real 64 × 64 matrix. -/
abbrev Mat : Type := Fin 64 → Fin 64 → ℝ

/-- The sum of a channel's entries. -/
def total (X : Arr) (c : Fin 64) : ℝ := ∑ b, ∑ h, ∑ w, X b c h w
/-- A channel's mean. -/
def mean (X : Arr) (c : Fin 64) : ℝ := total X c / 802816
/-- The raw second moments: Σ X(·,i,·,·)·X(·,j,·,·). -/
def gram (X : Arr) (i j : Fin 64) : ℝ := ∑ b, ∑ h, ∑ w, X b i h w * X b j h w
/-- The identity matrix. -/
def eye (i j : Fin 64) : ℝ := if i = j then 1 else 0
/-- The regularised covariance, from the centred entries. -/
def cov (X : Arr) : Mat := fun i j =>
  eps * eye i j + (∑ b, ∑ h, ∑ w, (X b i h w - mean X i) * (X b j h w - mean X j)) / 802816
/-- The same from the raw moments. -/
def covK (X : Arr) : Mat := fun i j => (eps * eye i j + gram X i j / 802816) - mean X i * mean X j

/-- A channel's entries sum to N times its mean. -/
private theorem sum_eq_count_mul_mean (X : Arr) (c : Fin 64) :
    (∑ b, ∑ h, ∑ w, X b c h w) = 802816 * mean X c := by
  unfold mean total; ring

/-- The centred double product, summed: the two cross terms each give −N·mean i·mean j, the constant term gives
    +N·mean i·mean j (there are 64·112·112 = N summands), so what is left is the raw moment minus N·mean i·mean j. -/
private theorem centred_sum (X : Arr) (i j : Fin 64) :
    (∑ b, ∑ h, ∑ w, (X b i h w - mean X i) * (X b j h w - mean X j))
      = gram X i j - 802816 * (mean X i * mean X j) := by
  have expand : ∀ b h w, (X b i h w - mean X i) * (X b j h w - mean X j)
      = X b i h w * X b j h w - mean X j * X b i h w - mean X i * X b j h w + mean X i * mean X j := by
    intro b h w; ring
  simp only [expand, Finset.sum_add_distrib, Finset.sum_sub_distrib, ← Finset.mul_sum, Finset.sum_const,
    Finset.card_univ, Fintype.card_fin, nsmul_eq_mul, sum_eq_count_mul_mean]
  unfold gram
  push_cast
  ring

/-- The centred and the raw-moment forms of the covariance agree. -/
theorem covK_eq (X : Arr) : covK X = cov X := by
  funext i j
  unfold covK cov
  rw [centred_sum]
  ring

/-- The trace. -/
def tr (S : Mat) : ℝ := ∑ i, S i i

/-- The covariance's trace is positive: each diagonal entry is ε plus a mean of squares. -/
theorem tr_cov_pos (X : Arr) : 0 < tr (cov X) := by
  unfold tr
  refine Finset.sum_pos (fun i _ => ?_) Finset.univ_nonempty
  have hsq : 0 ≤ (∑ b, ∑ h, ∑ w, (X b i h w - mean X i) * (X b i h w - mean X i)) / 802816 :=
    div_nonneg
      (Finset.sum_nonneg fun b _ => Finset.sum_nonneg fun h _ => Finset.sum_nonneg fun w _ => mul_self_nonneg _)
      (by norm_num)
  have hε := eps_pos
  have hdiag : eye i i = 1 := if_pos rfl
  show 0 < eps * eye i i + (∑ b, ∑ h, ∑ w, (X b i h w - mean X i) * (X b i h w - mean X i)) / 802816
  rw [hdiag]
  linarith

/-- The matrix product. -/
def mm (A B : Mat) : Mat := fun i j => ∑ k, A i k * B k j
/-- One Newton–Schulz step against the normalised covariance Sn. -/
def step (Sn P : Mat) : Mat := fun i j => 3 / 2 * P i j - 1 / 2 * mm (mm (mm P P) P) Sn i j
/-- The whitening matrix of a covariance S: five steps from the identity against S / tr S, scaled by √(1 / tr S). -/
def whiten (S : Mat) : Mat := fun i j =>
  step (fun a b => S a b * (1 / tr S)) (step (fun a b => S a b * (1 / tr S)) (step (fun a b => S a b * (1 / tr S))
    (step (fun a b => S a b * (1 / tr S)) (step (fun a b => S a b * (1 / tr S)) eye)))) i j * Real.sqrt (1 / tr S)

/-- The whitened array. -/
def out (X : Arr) (b c : Fin 64) (h w : Fin 112) : ℝ := ∑ k, whiten (cov X) c k * (X b k h w - mean X k)

/-- Applying the matrix to the raw entries and subtracting its product with the means gives the same. -/
theorem out_eq_kernel (X : Arr) (b c : Fin 64) (h w : Fin 112) :
    out X b c h w = (∑ k, whiten (covK X) c k * X b k h w) - ∑ k, whiten (covK X) c k * mean X k := by
  rw [covK_eq, ← Finset.sum_sub_distrib]
  unfold out
  exact Finset.sum_congr rfl fun k _ => mul_sub _ _ _

end Cert.Whiten.Spec

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«117467_j51127290691774_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.Tail.lean ====
/-
  The part of the computation that both programs share, as one function of the covariance matrix: from a 64 × 64
  matrix S it takes the trace (the sum of the entries selected by the diagonal mask), forms r = 1 / tr S and the
  normalised matrix S·r, runs five Newton–Schulz steps  P ↦ (3/2)·P − (1/2)·((P·P)·P)·(S·r)  from the identity
  (the diagonal mask read as numbers), and scales by √r.  The function is written over the array operations
  themselves, with the side conditions of its shapes as parameters, so that either program's text is an instance of it.
  On a real matrix of positive trace every value stays a real number, and the result is the whitening matrix of the
  specification, entry by entry.
-/
import proofs.«117467_j51127290691774_1_alg».proof.Proof.Spec
import proofs.«117467_j51127290691774_1_alg».proof.Proof.LibPlainDot
import Idealize.ShloMosaic.PureOps
import Idealize.ShloMosaic.PureOps.Ideal.Laws
import Idealize.ShloMosaic.Lib.ValueIdx

noncomputable section

namespace Cert.Whiten.Tail

open Idealize.ShloMosaic Idealize.ShloMosaic.ValueIdx Cert.Whiten

/-- The shape of a 64 × 64 matrix. -/
abbrev M2 : Shape := ⟨2, ![64, 64]⟩
/-- The shape of a scalar. -/
abbrev M0 : Shape := ⟨0, ![]⟩

variable (hb : M0.BroadcastsInDim M2 (![] : Fin 0 → Fin M2.rank)) (hr : M2.ReducesTo [0, 1] M0) (h0 : 0 < M0.numel)
  (d : DotDims M2 M2 M2)

/-- The diagonal mask: row number equals column number. -/
def maskV : IVec M2 1 :=
  cmpi .eq (addi (iotaInDim M2 32 0) (broadcastInDim M2 ![] hb (constantI M0 32 0#32))) (iotaInDim M2 32 1)

/-- The identity matrix: the mask read as numbers. -/
def eyeV : FVec Ideal M2 .f32 := uitofp .f32 (maskV hb)

/-- The trace: the sum over all entries of the matrix with everything off the diagonal replaced by zero. -/
def traceV (A : FVec Ideal M2 .f32) : FVec Ideal M0 .f32 :=
  Host.reduceAdd (select (maskV hb) A (broadcastInDim M2 ![] hb (constant M0 .f32 0x00000000#32)))
    (constant M0 .f32 0x00000000#32) hr h0

/-- One Newton–Schulz step against the normalised matrix σn. -/
def stepV (σn p : FVec Ideal M2 .f32) : FVec Ideal M2 .f32 :=
  subf (mulf (broadcastInDim M2 ![] hb (constant M0 .f32 0x3FC00000#32)) p)
    (mulf (broadcastInDim M2 ![] hb (constant M0 .f32 0x3F000000#32))
      (Host.dotGeneral d none (Host.dotGeneral d none (Host.dotGeneral d none p p) p) σn))

/-- r = 1 / tr σ. -/
def rV (σ : FVec Ideal M2 .f32) : FVec Ideal M0 .f32 := Host.divf (constant M0 .f32 0x3F800000#32) (traceV hb hr h0 σ)

/-- The normalised matrix σ·r. -/
def normV (σ : FVec Ideal M2 .f32) : FVec Ideal M2 .f32 := mulf σ (broadcastInDim M2 ![] hb (rV hb hr h0 σ))

/-- The whitening matrix: five steps from the identity, scaled by √r. -/
def whitenV (σ : FVec Ideal M2 .f32) : FVec Ideal M2 .f32 :=
  mulf (stepV hb d (normV hb hr h0 σ) (stepV hb d (normV hb hr h0 σ) (stepV hb d (normV hb hr h0 σ)
      (stepV hb d (normV hb hr h0 σ) (stepV hb d (normV hb hr h0 σ) (eyeV hb))))))
    (broadcastInDim M2 ![] hb (Host.sqrt (rV hb hr h0 σ)))

/-! ### Reading the pieces at an index -/

/-- A scalar spread over the matrix reads, at every entry, as the scalar. -/
private theorem bcast_apply {α : Type} (v : M0.Idx → α) (idx : M2.Idx) : broadcastInDim M2 ![] hb v idx = v ix0 := by
  show v _ = v ix0
  congr 1; funext a; exact a.elim0

/-- The coercion of the reals into the extended reals commutes with finite sums. -/
private theorem coe_finset_sum {ι : Type} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- The mask bit at (i, j): row and column numbers are below 64, so as 32-bit words they are equal exactly when
    i = j (adding the zero word changes nothing). -/
private theorem maskV_apply (i j : Fin 64) : maskV hb (ix2 i j) = if i = j then 1#1 else 0#1 := by
  show BitVec.ofBool (BitVec.ofNat 32 i.val + 0#32 == BitVec.ofNat 32 j.val) = _
  have hi := i.isLt
  have hj := j.isLt
  by_cases h : i = j
  · subst h; simp
  · rw [if_neg h]
    have hne : (BitVec.ofNat 32 i.val + 0#32 == BitVec.ofNat 32 j.val) = false := by
      rw [BitVec.add_zero, beq_eq_false_iff_ne]
      intro he
      have h2 := congrArg BitVec.toNat he
      simp only [BitVec.toNat_ofNat] at h2
      exact h (Fin.ext (by omega))
    rw [hne]; rfl

/-- The identity matrix, entry by entry. -/
theorem eyeV_apply (i j : Fin 64) : eyeV hb (ix2 i j) = ((Spec.eye i j : ℝ) : EReal) := by
  -- the bit read unsigned is 1 on the diagonal and 0 off it
  show (((maskV hb (ix2 i j)).toNat : ℝ) : EReal) = _
  rw [maskV_apply, Spec.eye]
  split_ifs <;> simp

/-- The trace is the sum of the diagonal. -/
theorem traceV_apply (A : FVec Ideal M2 .f32) : traceV hb hr h0 A ix0 = ∑ i : Fin 64, A (ix2 i i) := by
  unfold traceV Host.reduceAdd
  -- a sum into the scalar shape is the initial value, here zero, plus the sum over every entry
  rw [Ideal.hostReduceAdd_def, Ideal.hostReduceAdd_total hr (fun b => b.elim0), constant_apply, Consts.ofBits_zero,
    EReal.coe_zero, zero_add, sum_idx2]
  refine Finset.sum_congr rfl fun a _ => ?_
  -- in row a the masked matrix keeps the entry of column a only
  have hsel : ∀ b : Fin 64, select (maskV hb) A (broadcastInDim M2 ![] hb (constant M0 .f32 0x00000000#32)) (ix2 a b)
      = if a = b then A (ix2 a b) else 0 := by
    intro b
    rw [select_apply, maskV_apply, bcast_apply, constant_apply, Consts.ofBits_zero, EReal.coe_zero]
    by_cases h : a = b
    · rw [if_pos h, if_pos h]; rfl
    · rw [if_neg h, if_neg h]; rfl
  simp only [hsel]
  rw [Finset.sum_ite_eq]
  simp

/-! ### The iteration on a real matrix -/

/-- A plain product of two matrices of real numbers is the real matrix product, entry by entry. -/
private theorem dot_coe (hd : d = DotDims.plain 64 64 64) (a b : FVec Ideal M2 .f32) (A B : Spec.Mat)
    (ha : ∀ i j : Fin 64, a (ix2 i j) = ((A i j : ℝ) : EReal)) (hb' : ∀ i j : Fin 64, b (ix2 i j) = ((B i j : ℝ) : EReal))
    (i j : Fin 64) : Host.dotGeneral d none a b (ix2 i j) = ((Spec.mm A B i j : ℝ) : EReal) := by
  rw [LibPlainDot.dotGeneral_apply_of_plain d hd, Spec.mm, coe_finset_sum]
  refine Finset.sum_congr rfl fun k _ => ?_
  rw [ha, hb', EReal.coe_mul]

/-- One step on real matrices is the specification's step: (3/2)·P − (1/2)·((P·P)·P)·Sn, every product and the
    difference taken among real numbers. -/
private theorem stepV_apply (hd : d = DotDims.plain 64 64 64) (σn p : FVec Ideal M2 .f32) (Sn P : Spec.Mat)
    (hσn : ∀ i j : Fin 64, σn (ix2 i j) = ((Sn i j : ℝ) : EReal)) (hp : ∀ i j : Fin 64, p (ix2 i j) = ((P i j : ℝ) : EReal))
    (i j : Fin 64) : stepV hb d σn p (ix2 i j) = ((Spec.step Sn P i j : ℝ) : EReal) := by
  have h1 := dot_coe d hd p p P P hp hp
  have h2 := dot_coe d hd _ p (Spec.mm P P) P h1 hp
  have h3 := dot_coe d hd _ σn (Spec.mm (Spec.mm P P) P) Sn h2 hσn
  unfold stepV
  rw [subf_apply, mulf_apply, mulf_apply, bcast_apply, bcast_apply, constant_apply, constant_apply,
    Consts.ofBits_threeHalves, Consts.ofBits_half, h3, hp, ← EReal.coe_mul, ← EReal.coe_mul, ← EReal.coe_sub]
  rfl

/-- The trace of a real matrix is the real trace. -/
private theorem traceV_coe (σ : FVec Ideal M2 .f32) (S : Spec.Mat)
    (hσ : ∀ i j : Fin 64, σ (ix2 i j) = ((S i j : ℝ) : EReal)) :
    traceV hb hr h0 σ ix0 = ((Spec.tr S : ℝ) : EReal) := by
  rw [traceV_apply, Spec.tr, coe_finset_sum]
  exact Finset.sum_congr rfl fun i _ => hσ i i

/-- r = 1 / tr S: the trace is a nonzero real, so the quotient is the product with its reciprocal. -/
private theorem rV_apply (σ : FVec Ideal M2 .f32) (S : Spec.Mat)
    (hσ : ∀ i j : Fin 64, σ (ix2 i j) = ((S i j : ℝ) : EReal)) (hpos : 0 < Spec.tr S) :
    rV hb hr h0 σ ix0 = ((1 / Spec.tr S : ℝ) : EReal) := by
  show FloatOps.hostDivf (constant (F := Ideal) M0 .f32 0x3F800000#32 ix0) (traceV hb hr h0 σ ix0) = _
  rw [Ideal.hostDivf_def, constant_apply, Consts.ofBits_one, traceV_coe hb hr h0 σ S hσ, Ideal.div_coe (ne_of_gt hpos),
    ← EReal.coe_mul, one_mul]

/-- The normalised matrix, entry by entry. -/
private theorem normV_apply (σ : FVec Ideal M2 .f32) (S : Spec.Mat)
    (hσ : ∀ i j : Fin 64, σ (ix2 i j) = ((S i j : ℝ) : EReal)) (hpos : 0 < Spec.tr S) (i j : Fin 64) :
    normV hb hr h0 σ (ix2 i j) = ((S i j * (1 / Spec.tr S) : ℝ) : EReal) := by
  unfold normV
  rw [mulf_apply, bcast_apply, rV_apply hb hr h0 σ S hσ hpos, hσ, ← EReal.coe_mul]

/-- √r: r is a nonnegative real, so its root is the real square root. -/
private theorem sqrt_rV_apply (σ : FVec Ideal M2 .f32) (S : Spec.Mat)
    (hσ : ∀ i j : Fin 64, σ (ix2 i j) = ((S i j : ℝ) : EReal)) (hpos : 0 < Spec.tr S) :
    Host.sqrt (rV hb hr h0 σ) ix0 = ((Real.sqrt (1 / Spec.tr S) : ℝ) : EReal) := by
  show FloatOps.hostUnary .sqrt (rV hb hr h0 σ ix0) = _
  rw [Ideal.hostUnary_sqrt_def, rV_apply hb hr h0 σ S hσ hpos, Ideal.sqrt_coe,
    if_neg (not_lt.mpr (le_of_lt (one_div_pos.mpr hpos)))]

/-- On a real matrix of positive trace the shared part computes the specification's whitening matrix. -/
theorem whitenV_apply (hd : d = DotDims.plain 64 64 64) (σ : FVec Ideal M2 .f32) (S : Spec.Mat)
    (hσ : ∀ i j : Fin 64, σ (ix2 i j) = ((S i j : ℝ) : EReal)) (hpos : 0 < Spec.tr S) (i j : Fin 64) :
    whitenV hb hr h0 d σ (ix2 i j) = ((Spec.whiten S i j : ℝ) : EReal) := by
  -- the normalised matrix is real, the identity is real, and each step keeps a real matrix real
  have hn : ∀ a b : Fin 64, normV hb hr h0 σ (ix2 a b) = (((fun a b => S a b * (1 / Spec.tr S)) a b : ℝ) : EReal) :=
    normV_apply hb hr h0 σ S hσ hpos
  have h1 := stepV_apply hb d hd _ _ (fun a b => S a b * (1 / Spec.tr S)) Spec.eye hn (eyeV_apply hb)
  have h2 := stepV_apply hb d hd _ _ (fun a b => S a b * (1 / Spec.tr S)) _ hn h1
  have h3 := stepV_apply hb d hd _ _ (fun a b => S a b * (1 / Spec.tr S)) _ hn h2
  have h4 := stepV_apply hb d hd _ _ (fun a b => S a b * (1 / Spec.tr S)) _ hn h3
  have h5 := stepV_apply hb d hd _ _ (fun a b => S a b * (1 / Spec.tr S)) _ hn h4
  unfold whitenV
  rw [mulf_apply, h5, bcast_apply, sqrt_rV_apply hb hr h0 σ S hσ hpos, ← EReal.coe_mul]
  rfl

end Cert.Whiten.Tail

end
-- ==== Proof.KerTerm.lean ====
/-
  The kernel program's values between its two grid computations, as functions of the two accumulated arrays
  (the channel sums, a 64 × 1 column, and the raw second moments, 64 × 64), written with the program's own array
  operations: the means  sx / N,  the covariance  (ε·I + sxx/N) − mean·meanᵀ,  the whitening matrix (the shared part)
  and the bias column  W·mean;  and, index by index, what the two grid computations themselves produce.
-/
import proofs.«117467_j51127290691774_1_alg».proof.KernelIdeal
import proofs.«117467_j51127290691774_1_alg».proof.Proof.Gen.KernelIdeal
import proofs.«117467_j51127290691774_1_alg».proof.Proof.Tail

noncomputable section

namespace Cert.KernelIdeal.Term

open Idealize.ShloMosaic Idealize.ShloMosaic.ValueIdx Cert.KernelIdeal Cert.KernelIdeal.Gen Cert.Whiten

/-- The means, as a column. -/
def meanK (sx : FVec Ideal S64x1 .f32) : FVec Ideal S64x1 .f32 :=
  Host.divf sx (broadcastInDim S64x1 ![] bcast_S_S64x1 (constant S_ .f32 0x49440000#32))

/-- The covariance from the raw moments. -/
def sigmaK (sx : FVec Ideal S64x1 .f32) (sxx : FVec Ideal S64x64 .f32) : FVec Ideal S64x64 .f32 :=
  subf (addf (mulf (broadcastInDim S64x64 ![] bcast_S_S64x64 (constant S_ .f32 0x3727C5AC#32)) (Tail.eyeV bcast_S_S64x64))
      (Host.divf sxx (broadcastInDim S64x64 ![] bcast_S_S64x64 (constant S_ .f32 0x49440000#32))))
    (Host.dotGeneral dot_S64x1_S1x64_S64x64_1_0_0_1_n_n none (meanK sx)
      (transpose S1x64 [1, 0] (meanK sx) transposes_S64x1_S1x64_1_0))

/-- The whitening matrix. -/
def wmK (sx : FVec Ideal S64x1 .f32) (sxx : FVec Ideal S64x64 .f32) : FVec Ideal S64x64 .f32 :=
  Tail.whitenV bcast_S_S64x64 reducesTo_S64x64_S_d0_1 h_S_ dot_S64x64_S64x64_S64x64_1_0_0_1_n_n (sigmaK sx sxx)

/-- The bias column W·mean. -/
def biasK (sx : FVec Ideal S64x1 .f32) (sxx : FVec Ideal S64x64 .f32) : FVec Ideal S64x1 .f32 :=
  Host.dotGeneral dot_S64x64_S64x1_S64x1_1_0_0_1_n_n none (wmK sx sxx) (meanK sx)

/-- What the first grid computation accumulates in its first result: each channel's sum over images, rows, columns. -/
def sumxV (x : FVec Ideal S64x64x112x112 .f32) : FVec Ideal S64x1 .f32 :=
  fun idx => ∑ b : Fin 64, ∑ h : Fin 112, ∑ w : Fin 112, x (ix4 b (idx 0) h w)

/-- What it accumulates in its second result: the raw second moments of each pair of channels. -/
def gramV (x : FVec Ideal S64x64x112x112 .f32) : FVec Ideal S64x64 .f32 :=
  fun idx => ∑ b : Fin 64, ∑ h : Fin 112, ∑ w : Fin 112, x (ix4 b (idx 0) h w) * x (ix4 b (idx 1) h w)

/-- What the second grid computation writes: the matrix applied across channels at each position, less the bias. -/
def applyV (x : FVec Ideal S64x64x112x112 .f32) (wm : FVec Ideal S64x64 .f32) (bias : FVec Ideal S64x1 .f32) :
    FVec Ideal S64x64x112x112 .f32 :=
  fun idx => (∑ k : Fin 64, wm (ix2 (idx 1) k) * x (ix4 (idx 0) k (idx 2) (idx 3))) - bias (ix2 (idx 1) 0)

end Cert.KernelIdeal.Term

end
-- ==== Proof.KerPayload.lean ====
/-
  The arithmetic of the two kernel bodies read entry by entry.  The first body adds to the running column the block's
  per-channel sum over rows and columns (a sum over columns, then over rows), and to the running matrix the product of
  the block, flattened to 64 × 12544, with its transpose: entry (i,j) gains  Σ_{h,w} v(i,h,w)·v(j,h,w).  Its reset stores
  zeros.  The second body multiplies the 64 × 64 matrix with the flattened block and subtracts the bias of the row:
  entry (c,h,w) is  Σ_k M(c,k)·v(k,h,w) − bias c.  A change of float format is the identity on extended reals.
-/
import proofs.«117467_j51127290691774_1_alg».proof.KernelIdeal
import proofs.«117467_j51127290691774_1_alg».proof.Proof.Gen.KernelIdeal
import proofs.«117467_j51127290691774_1_alg».proof.Proof.Gen.KernelIdeal.Skeleton
import proofs.«117467_j51127290691774_1_alg».proof.Proof.LibPlainDot
import proofs.«117467_j51127290691774_1_alg».proof.Proof.Consts
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.Whiten

/-- The reset's column of zeros. -/
theorem pay1_apply (idx : S64x1.Idx) : k0_pay1 (F := Ideal) idx = 0 := by
  show Ideal.ofBits .f32 0x00000000#32 = 0
  rw [Consts.ofBits_zero]; rfl

/-- The reset's matrix of zeros. -/
theorem pay2_apply (idx : S64x64.Idx) : k0_pay2 (F := Ideal) idx = 0 := by
  show Ideal.ofBits .f32 0x00000000#32 = 0
  rw [Consts.ofBits_zero]; rfl

/-! ### Reshapes read at an index

A reshape keeps the row-major position.  Position (c,h) of a 64 × 112 array is position (c,h,0) of the 64 × 112 × 1 one;
position (c,h,w) of a 64 × 112 × 112 array is position (c, 112·h + w) of the 64 × 12544 one, in both directions; a column
broadcast along the second axis reads its one entry of the row; and a sum over the 12544 flat positions is the double
sum over rows h and columns w. -/

section Layout
variable {α : Type}

/-- A 64 × 112 array with a trailing unit axis added: (c,h,0) reads (c,h). -/
private theorem cast_col (x : S64x112.Idx → α) (hc : S64x112.ShapeCasts S64x112x1) (c : Fin 64) (h : Fin 112) (u : Fin 1) :
    shapeCast S64x112x1 x hc (ix3 c h u) = x (ix2 c h) :=
  shapeCast_apply x hc _ _ (by
    have hu : u.val = 0 := by omega
    rw [Shape.rowMajor_val_three, Shape.rowMajor_val_two]
    show c.val * 112 + h.val = (c.val * 112 + h.val) * 1 + u.val
    omega)

/-- Rows and columns flattened: (c, 112·h + w) reads (c,h,w). -/
private theorem flat_apply (x : S64x112x112.Idx → α) (hc : S64x112x112.ShapeCasts S64x12544) (c : Fin 64) (h w : Fin 112)
    (p : Fin 12544) (hp : p.val = h.val * 112 + w.val) :
    shapeCast S64x12544 x hc (ix2 c p) = x (ix3 c h w) :=
  shapeCast_apply x hc _ _ (by
    rw [Shape.rowMajor_val_three, Shape.rowMajor_val_two]
    show (c.val * 112 + h.val) * 112 + w.val = c.val * 12544 + p.val
    omega)

/-- The flat axis split back into rows and columns: (c,h,w) reads (c, 112·h + w). -/
private theorem unflat_apply (x : S64x12544.Idx → α) (hc : S64x12544.ShapeCasts S64x112x112) (c : Fin 64) (h w : Fin 112)
    (p : Fin 12544) (hp : p.val = h.val * 112 + w.val) :
    shapeCast S64x112x112 x hc (ix3 c h w) = x (ix2 c p) :=
  shapeCast_apply x hc _ _ (by
    rw [Shape.rowMajor_val_three, Shape.rowMajor_val_two]
    show c.val * 12544 + p.val = (c.val * 112 + h.val) * 112 + w.val
    omega)

/-- A column repeated along the flat axis: (c,p) reads the column's entry c. -/
private theorem bcast_col (x : S64x1.Idx → α) (hb : S64x1.Broadcasts S64x12544) (c : Fin 64) (p : Fin 12544) :
    broadcastTo S64x12544 x hb (ix2 c p) = x (ix2 c (0 : Fin 1)) := by
  refine broadcastTo_apply x hb (ix2 c p) (ix2 c (0 : Fin 1)) fun ax => ?_
  match ax with
  | ⟨0, _⟩ => rfl
  | ⟨1, _⟩ => rfl

/-- A sum over the 12544 = 112·112 flat positions is the sum over rows of the sum over columns. -/
private theorem sum_flat {M : Type} [AddCommMonoid M] (f : Fin 12544 → M) :
    ∑ p : Fin 12544, f p
      = ∑ h : Fin 112, ∑ w : Fin 112, f ⟨h.val * 112 + w.val, by have := h.isLt; have := w.isLt; omega⟩ := by
  rw [← Equiv.sum_comp (finProdFinEquiv : Fin 112 × Fin 112 ≃ Fin 12544) f, Fintype.sum_prod_type]
  refine Finset.sum_congr rfl fun h _ => Finset.sum_congr rfl fun w _ => congrArg f (Fin.ext ?_)
  show w.val + 112 * h.val = h.val * 112 + w.val
  omega

end Layout

/-! ### The first body -/

/-- The block without its leading unit axis: (c,h,w) reads (0,c,h,w). -/
private theorem pay3_apply (v3 : Vec Ideal S1x64x112x112 .f32) (c : Fin 64) (h w : Fin 112) :
    k0_pay3 v3 (ix3 c h w) = v3 (ix4 (0 : Fin 1) c h w) :=
  shapeCast_1abc_abc_apply v3 _ c h w

/-- The sum along the last axis of a 64 × 112 × 112 array, at (c,h): Σ_w x(c,h,w). -/
private theorem sumW_apply (x : FVec Ideal S64x112x112 .f32) (c : Fin 64) (h : Fin 112) :
    multiReduction .add [2] S64x112 x 0x00000000#32 reduces_S64x112x112_S64x112 (.inl rfl) rfl (ix2 c h)
      = ∑ w : Fin 112, x (ix3 c h w) := by
  refine (Ideal.multiReduction_add_single x 0x00000000#32 reduces_S64x112x112_S64x112 (.inl rfl) rfl (ix2 c h)).trans ?_
  refine Finset.sum_congr rfl fun w _ => ?_
  have e : reduces_S64x112x112_S64x112.lift (ix2 c h) w = ix3 c h w := by
    funext a; match a with | ⟨0, _⟩ => rfl | ⟨1, _⟩ => rfl | ⟨2, _⟩ => rfl
  exact congrArg x e

/-- The sum along the middle axis of a 64 × 112 × 1 array, at (c,0): Σ_h x(c,h,0). -/
private theorem sumH_apply (x : FVec Ideal S64x112x1 .f32) (c : Fin 64) (u : Fin 1) :
    multiReduction .add [1] S64x1 x 0x00000000#32 reduces_S64x112x1_S64x1 (.inl rfl) rfl (ix2 c u)
      = ∑ h : Fin 112, x (ix3 c h u) := by
  refine (Ideal.multiReduction_add_single x 0x00000000#32 reduces_S64x112x1_S64x1 (.inl rfl) rfl (ix2 c u)).trans ?_
  refine Finset.sum_congr rfl fun h _ => ?_
  have e : reduces_S64x112x1_S64x1.lift (ix2 c u) h = ix3 c h u := by
    funext a; match a with | ⟨0, _⟩ => rfl | ⟨1, _⟩ => rfl | ⟨2, _⟩ => rfl
  exact congrArg x e

/-- The column update: the running value plus the block's sum over rows and columns of that channel. -/
theorem pay4_apply (v3 : Vec Ideal S1x64x112x112 .f32) (v9 : Vec Ideal S64x1 .f32) (c : Fin 64) (u : Fin 1) :
    k0_pay4 v3 v9 (ix2 c u) = v9 (ix2 c u) + ∑ h : Fin 112, ∑ w : Fin 112, v3 (ix4 (0 : Fin 1) c h w) := by
  unfold k0_pay4
  dsimp only
  -- the reshapes of the running column and of the reduced column, there and back, are identities
  rw [addf_apply, shapeCast_self, shapeCast_shapeCast, sumH_apply]
  refine congrArg (v9 (ix2 c u) + ·) (Finset.sum_congr rfl fun h _ => ?_)
  rw [cast_col, sumW_apply]
  exact Finset.sum_congr rfl fun w _ => pay3_apply v3 c h w

/-- The matrix update: the running value plus the block's raw second moment of the two channels. -/
theorem pay5_apply (v3 : Vec Ideal S1x64x112x112 .f32) (v18 : Vec Ideal S64x64 .f32) (i j : Fin 64) :
    k0_pay5 v3 v18 (ix2 i j)
      = v18 (ix2 i j) + ∑ h : Fin 112, ∑ w : Fin 112, v3 (ix4 (0 : Fin 1) i h w) * v3 (ix4 (0 : Fin 1) j h w) := by
  unfold k0_pay5
  dsimp only
  rw [addf_apply, shapeCast_self]
  refine congrArg (v18 (ix2 i j) + ·) ?_
  -- the product of the flattened block with its transpose, as a sum over the flat position
  refine (LibPlainDot.matmul_zero_apply_of_plain dot_S64x12544_S12544x64_S64x64_1_0_0_1_n_n rfl none _ _ i j).trans ?_
  rw [sum_flat]
  refine Finset.sum_congr rfl fun h _ => Finset.sum_congr rfl fun w _ => ?_
  -- both factors read the block at (·,h,w)
  rw [transpose_ix2_apply, truncf_apply, truncf_apply, flat_apply _ _ i h w _ rfl, flat_apply _ _ j h w _ rfl,
    pay3_apply, pay3_apply]

/-! ### The second body -/

/-- The second body: the matrix applied across channels at a position, less the row's bias. -/
theorem k1_pay1_apply (v0 : Vec Ideal S1x64x112x112 .f32) (v4 : Vec Ideal S64x64 .f32) (v8 : Vec Ideal S64x1 .f32)
    (u : Fin 1) (c : Fin 64) (h w : Fin 112) :
    k1_pay1 v0 v4 v8 (ix4 u c h w)
      = (∑ k : Fin 64, v4 (ix2 c k) * v0 (ix4 (0 : Fin 1) k h w)) - v8 (ix2 c (0 : Fin 1)) := by
  unfold k1_pay1
  -- entry (·,c,h,w) of the result is entry (c, 112·h + w) of the flat difference
  rw [shapeCast_abc_1abc_apply,
    unflat_apply _ _ c h w ⟨h.val * 112 + w.val, by have := h.isLt; have := w.isLt; omega⟩ rfl,
    subf_apply, bcast_col, shapeCast_self v8, shapeCast_self v4]
  refine congrArg (· - v8 (ix2 c (0 : Fin 1))) ?_
  refine (LibPlainDot.matmul_zero_apply_of_plain dot_S64x64_S64x12544_S64x12544_1_0_0_1_n_n rfl none _ _ c _).trans ?_
  refine Finset.sum_congr rfl fun k _ => ?_
  rw [truncf_apply, truncf_apply, flat_apply _ _ k h w _ rfl]
  exact congrArg (v4 (ix2 c k) * ·) (shapeCast_1abc_abc_apply v0 _ k h w)

end Cert.KernelIdeal.Payload

end
-- ==== Proof.KerRegion0.lean ====
/-
  The first grid computation's value.  Point t of its 64 points reads image t (a 64 × 112 × 112 block) and adds, into
  two blocks that stay in place across the points and are zeroed at point 0, the block's per-channel sums and the
  product of the 64 × 12544 matrix of the block with its transpose.  After the last point the two result arrays hold
  the sums over all images: each channel's total, and each pair of channels' raw second moment.
-/
import proofs.«117467_j51127290691774_1_alg».proof.Proof.KerTerm
import proofs.«117467_j51127290691774_1_alg».proof.Proof.KerPayload
import proofs.«117467_j51127290691774_1_alg».proof.Proof.Gen.KernelIdeal.Frame
import Idealize.ShloMosaic.Lib.Pipeline.Value
import Idealize.ShloMosaic.Lib.ValueLayout

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Whiten

section Pieces

variable {F : FTy → Type} [FloatOps F]

/-- The zero offsets of a rank-2 and of a rank-4 access, however spelt. -/
private theorem hz2 : (![0, 0] : Fin 2 → Nat) = fun _ => 0 := funext fun a => by fin_cases a <;> rfl
private theorem hz4 : (![0, 0, 0, 0] : Fin 4 → Nat) = fun _ => 0 := funext fun a => by fin_cases a <;> rfl

/-- Away from the first point the column buffer ends at its update: the running column plus the block's sums. -/
private theorem out_B_1 (c : Dev nD) (i : grid0.Coords) (a1 : Memref sig .tc .vmem S1x64x112x112 .f32) (h1 : a1.IsWhole)
    (a2 : Memref sig .tc .vmem S64x1 .f32) (h2 : a2.IsWhole) (a3 : Memref sig .tc .vmem S64x64 .f32) (h3 : a3.IsWhole)
    (hc : ¬cond0_0 i) (x : Vec F S1x64x112x112 .f32) (xo1 : Vec F S64x1 .f32) (xo2 : Vec F S64x64 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz2]
  simp only [View.readAt_eq_ld, h1.read_unread, h2.read_unread, View.ld_unit_zero (S := S1x64x112x112) hz4,
    View.ld_unit_zero (S := S64x1) hz2]

/-- And the matrix buffer at its update: the running matrix plus the block's product with its transpose. -/
private theorem out_B_2 (c : Dev nD) (i : grid0.Coords) (a1 : Memref sig .tc .vmem S1x64x112x112 .f32) (h1 : a1.IsWhole)
    (a2 : Memref sig .tc .vmem S64x1 .f32) (h2 : a2.IsWhole) (a3 : Memref sig .tc .vmem S64x64 .f32) (h3 : a3.IsWhole)
    (hc : ¬cond0_0 i) (x : Vec F S1x64x112x112 .f32) (xo1 : Vec F S64x1 .f32) (xo2 : Vec F S64x64 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz2]
  simp only [View.readAt_eq_ld, h1.read_unread, h3.read_unread, View.ld_unit_zero (S := S1x64x112x112) hz4,
    View.ld_unit_zero (S := S64x64) hz2]

/-- At the first point the column buffer is zeroed, read back and updated: the zeros plus the block's sums. -/
private theorem out_A_1 (c : Dev nD) (i : grid0.Coords) (a1 : Memref sig .tc .vmem S1x64x112x112 .f32) (h1 : a1.IsWhole)
    (a2 : Memref sig .tc .vmem S64x1 .f32) (h2 : a2.IsWhole) (a3 : Memref sig .tc .vmem S64x64 .f32) (h3 : a3.IsWhole)
    (hc : cond0_0 i) (x : Vec F S1x64x112x112 .f32) :
    out0_A_1 c i a1 h1 a2 h2 a3 h3 hc x = k0_pay4 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S64x1) hz2]
  simp only [View.readAt_eq_ld, h1.read_unread, View.ld_unit_zero (S := S1x64x112x112) hz4,
    View.readCov_unit_zero (S := S64x1) _ hz2]

/-- And the matrix buffer likewise: the zeros plus the block's product with its transpose. -/
private theorem out_A_2 (c : Dev nD) (i : grid0.Coords) (a1 : Memref sig .tc .vmem S1x64x112x112 .f32) (h1 : a1.IsWhole)
    (a2 : Memref sig .tc .vmem S64x1 .f32) (h2 : a2.IsWhole) (a3 : Memref sig .tc .vmem S64x64 .f32) (h3 : a3.IsWhole)
    (hc : cond0_0 i) (x : Vec F S1x64x112x112 .f32) :
    out0_A_2 c i a1 h1 a2 h2 a3 h3 hc x = k0_pay5 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S64x64) hz2]
  simp only [View.readAt_eq_ld, h1.read_unread, View.ld_unit_zero (S := S1x64x112x112) hz4,
    View.readCov_unit_zero (S := S64x64) _ hz2]

end Pieces

variable (V : (c : Dev nD) → (b : Ref sig .tc) → Buf (Elt Ideal) ((c : Thread nD τ).loc b))

/-- The input array and its block at a point, under their literal types. -/
private abbrev xarr (c : Dev nD) : Vec Ideal S64x64x112x112 .f32 := V c main_arg0
private abbrev xblk (c : Dev nD) (t : Fin cfg0.N) : Vec Ideal S1x64x112x112 .f32 := iblk0 V c 0 t

/-- A point of the grid as an image number. -/
private abbrev img (t : Fin cfg0.N) : Fin 64 := ⟨t.val, lt_of_lt_of_eq t.isLt (show cfg0.N = 64 from N_0)⟩

/-- The input window's block index at point t is (t, 0, 0, 0). -/
private theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- The block at point t is image t: entry (0, ch, h, w) of the block is entry (t, ch, h, w) of the array
    (a block's coordinate is its index times its extent plus the coordinate inside). -/
private theorem xblk_apply (c : Dev nD) (t : Fin cfg0.N) (ch : Fin 64) (h w : Fin 112) :
    xblk V c t (ix4 (0 : Fin 1) ch h w) = xarr V c (ix4 (img t) ch h w) := by
  obtain ⟨i0, i1, i2, i3⟩ := index0 t
  show iblk0 V c 0 t (ix4 (0 : Fin 1) ch h w) = V c main_arg0 (ix4 (img t) ch h w)
  unfold iblk0
  rw [View.read_apply]
  show V c main_arg0 _ = V c main_arg0 _
  congr 1
  funext a
  apply Fin.ext
  match a with
  | ⟨0, _⟩ => show win0_0.index t 0 * 1 + 1 * ((0 : Fin 1) : ℕ) = t.val; rw [i0]; simp
  | ⟨1, _⟩ => show win0_0.index t 1 * 64 + 1 * (ch : ℕ) = ch; rw [i1]; omega
  | ⟨2, _⟩ => show win0_0.index t 2 * 112 + 1 * (h : ℕ) = h; rw [i2]; omega
  | ⟨3, _⟩ => show win0_0.index t 3 * 112 + 1 * (w : ℕ) = w; rw [i3]; omega

/-- Image k's sum over rows and columns of a channel (zero past the last image). -/
private def colTerm (c : Dev nD) (ch : Fin 64) (k : ℕ) : EReal :=
  if hk : k < 64 then ∑ h : Fin 112, ∑ w : Fin 112, xarr V c (ix4 (⟨k, hk⟩ : Fin 64) ch h w) else 0

/-- Image k's raw second moment of a pair of channels (zero past the last image). -/
private def gramTerm (c : Dev nD) (i j : Fin 64) (k : ℕ) : EReal :=
  if hk : k < 64 then ∑ h : Fin 112, ∑ w : Fin 112,
    xarr V c (ix4 (⟨k, hk⟩ : Fin 64) i h w) * xarr V c (ix4 (⟨k, hk⟩ : Fin 64) j h w) else 0

private theorem colTerm_of_lt (c : Dev nD) (ch : Fin 64) (t : Fin cfg0.N) :
    colTerm V c ch t.val = ∑ h : Fin 112, ∑ w : Fin 112, xblk V c t (ix4 (0 : Fin 1) ch h w) := by
  unfold colTerm
  rw [dif_pos (img t).isLt]
  exact Finset.sum_congr rfl fun h _ => Finset.sum_congr rfl fun w _ => (xblk_apply V c t ch h w).symm

private theorem gramTerm_of_lt (c : Dev nD) (i j : Fin 64) (t : Fin cfg0.N) :
    gramTerm V c i j t.val = ∑ h : Fin 112, ∑ w : Fin 112,
      xblk V c t (ix4 (0 : Fin 1) i h w) * xblk V c t (ix4 (0 : Fin 1) j h w) := by
  unfold gramTerm
  rw [dif_pos (img t).isLt]
  exact Finset.sum_congr rfl fun h _ => Finset.sum_congr rfl fun w _ => by
    rw [xblk_apply V c t i h w, xblk_apply V c t j h w]

/-- After point n the column buffer holds, channel by channel, the sum over the images up to n. -/
private theorem col_inv (c : Dev nD) : ∀ (n : ℕ) (hn : n < cfg0.N) (ch : Fin 64) (u : Fin 1),
    (outsAt0 V c n hn).1 (ix2 ch u) = ∑ k ∈ Finset.range (n + 1), colTerm V c ch k
  | 0, hn, ch, u => by
    rw [outsAt0_A V c ⟨0, hn⟩ rfl]
    dsimp only
    refine (congrFun (out_A_1 (F := Ideal) c (grid0.coords ⟨0, hn⟩) (ms0_0 ⟨0, hn⟩) (hs0_0 ⟨0, hn⟩) (ms0_1 ⟨0, hn⟩)
      (hs0_1 ⟨0, hn⟩) (ms0_2 ⟨0, hn⟩) (hs0_2 ⟨0, hn⟩) ((hcond0_0 ⟨0, hn⟩).mpr rfl) (xblk V c ⟨0, hn⟩)) (ix2 ch u)).trans ?_
    refine (Payload.pay4_apply (xblk V c ⟨0, hn⟩) (k0_pay1 (F := Ideal)) ch u).trans ?_
    rw [Payload.pay1_apply, zero_add, Finset.sum_range_one]
    exact (colTerm_of_lt V c ch ⟨0, hn⟩).symm
  | n + 1, hn, ch, u => by
    have hN : cfg0.N = 64 := N_0
    have hB : ¬(⟨n + 1, hn⟩ : Fin cfg0.N).val % 64 = 0 := by dsimp only; omega
    rw [outsAt0_B V c ⟨n + 1, hn⟩ hB]
    dsimp only
    refine (congrFun (out_B_1 (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩)
      (fun h => hB ((hcond0_0 ⟨n + 1, hn⟩).mp h)) (xblk V c ⟨n + 1, hn⟩)
      (outsAt0 V c n (Nat.lt_of_succ_lt hn)).1 (outsAt0 V c n (Nat.lt_of_succ_lt hn)).2) (ix2 ch u)).trans ?_
    refine (Payload.pay4_apply (xblk V c ⟨n + 1, hn⟩) (outsAt0 V c n (Nat.lt_of_succ_lt hn)).1 ch u).trans ?_
    rw [col_inv c n (Nat.lt_of_succ_lt hn) ch u, Finset.sum_range_succ _ (n + 1)]
    exact congrArg _ (colTerm_of_lt V c ch ⟨n + 1, hn⟩).symm

/-- After point n the matrix buffer holds, pair by pair, the raw second moment over the images up to n. -/
private theorem gram_inv (c : Dev nD) : ∀ (n : ℕ) (hn : n < cfg0.N) (i j : Fin 64),
    (outsAt0 V c n hn).2 (ix2 i j) = ∑ k ∈ Finset.range (n + 1), gramTerm V c i j k
  | 0, hn, i, j => by
    rw [outsAt0_A V c ⟨0, hn⟩ rfl]
    dsimp only
    refine (congrFun (out_A_2 (F := Ideal) c (grid0.coords ⟨0, hn⟩) (ms0_0 ⟨0, hn⟩) (hs0_0 ⟨0, hn⟩) (ms0_1 ⟨0, hn⟩)
      (hs0_1 ⟨0, hn⟩) (ms0_2 ⟨0, hn⟩) (hs0_2 ⟨0, hn⟩) ((hcond0_0 ⟨0, hn⟩).mpr rfl) (xblk V c ⟨0, hn⟩)) (ix2 i j)).trans ?_
    refine (Payload.pay5_apply (xblk V c ⟨0, hn⟩) (k0_pay2 (F := Ideal)) i j).trans ?_
    rw [Payload.pay2_apply, zero_add, Finset.sum_range_one]
    exact (gramTerm_of_lt V c i j ⟨0, hn⟩).symm
  | n + 1, hn, i, j => by
    have hN : cfg0.N = 64 := N_0
    have hB : ¬(⟨n + 1, hn⟩ : Fin cfg0.N).val % 64 = 0 := by dsimp only; omega
    rw [outsAt0_B V c ⟨n + 1, hn⟩ hB]
    dsimp only
    refine (congrFun (out_B_2 (F := Ideal) c (grid0.coords ⟨n + 1, hn⟩) (ms0_0 ⟨n + 1, hn⟩) (hs0_0 ⟨n + 1, hn⟩)
      (ms0_1 ⟨n + 1, hn⟩) (hs0_1 ⟨n + 1, hn⟩) (ms0_2 ⟨n + 1, hn⟩) (hs0_2 ⟨n + 1, hn⟩)
      (fun h => hB ((hcond0_0 ⟨n + 1, hn⟩).mp h)) (xblk V c ⟨n + 1, hn⟩)
      (outsAt0 V c n (Nat.lt_of_succ_lt hn)).1 (outsAt0 V c n (Nat.lt_of_succ_lt hn)).2) (ix2 i j)).trans ?_
    refine (Payload.pay5_apply (xblk V c ⟨n + 1, hn⟩) (outsAt0 V c n (Nat.lt_of_succ_lt hn)).2 i j).trans ?_
    rw [gram_inv c n (Nat.lt_of_succ_lt hn) i j, Finset.sum_range_succ _ (n + 1)]
    exact congrArg _ (gramTerm_of_lt V c i j ⟨n + 1, hn⟩).symm

/-- The last point. -/
private abbrev tLast : Fin cfg0.N := ⟨63, by rw [show cfg0.N = 64 from N_0]; decide⟩

/-- Summed over all 64 images the terms give each channel's total, -/
private theorem sum_colTerm (c : Dev nD) (ch : Fin 64) :
    ∑ k ∈ Finset.range 64, colTerm V c ch k = ∑ b : Fin 64, ∑ h : Fin 112, ∑ w : Fin 112, xarr V c (ix4 b ch h w) := by
  rw [← Fin.sum_univ_eq_sum_range (fun k => colTerm V c ch k) 64]
  exact Finset.sum_congr rfl fun b _ => by unfold colTerm; rw [dif_pos b.isLt]

/-- and each pair's raw second moment. -/
private theorem sum_gramTerm (c : Dev nD) (i j : Fin 64) :
    ∑ k ∈ Finset.range 64, gramTerm V c i j k
      = ∑ b : Fin 64, ∑ h : Fin 112, ∑ w : Fin 112, xarr V c (ix4 b i h w) * xarr V c (ix4 b j h w) := by
  rw [← Fin.sum_univ_eq_sum_range (fun k => gramTerm V c i j k) 64]
  exact Finset.sum_congr rfl fun b _ => by unfold gramTerm; rw [dif_pos b.isLt]

/-- The one write-back of the column, at the last point, writes the channel totals: the block is the whole array. -/
private theorem flushed_col (c : Dev nD) (t : Fin cfg0.N) (hf : (cfg0.win 1).flush t = true) :
    (dat0 V c).flushed 1 t = ((cfg0.win 1).blk t).view.read (Elt Ideal) (Term.sumxV (V c main_arg0)) := by
  have hN : cfg0.N = 64 := N_0
  have h63 : t.val = 63 := by have := (flush0_1 t).mp hf; have := t.isLt; omega
  obtain rfl : t = tLast := Fin.ext h63
  have hz' : (fun a => win0_1.index tLast a * main_v0_0.ty.shape.size a) = fun _ => 0 :=
    funext fun a => by fin_cases a <;> decide
  refine Eq.trans ?_ (Memref.read_access_unit_zero (Elt Ideal) main_v0_0 hz' (fun a => by rw [congrFun hz' a]; simp)
    (Term.sumxV (V c main_arg0))).symm
  show (cfg0.win 1).cut (grid0.coords tLast) ((dat0 V c).after 1 tLast) = _
  rw [after0_1]
  refine funext fun (y : S64x1.Idx) => ?_
  show (outsAt0 V c 63 tLast.isLt).1 y = Term.sumxV (V c main_arg0) y
  obtain ⟨a, u, rfl⟩ : ∃ (a : Fin 64) (u : Fin 1), y = ix2 a u := ⟨y 0, y 1, eq_ix2 y⟩
  rw [col_inv V c 63 tLast.isLt a u, sum_colTerm V c a]
  rfl

/-- The one write-back of the matrix, at the last point, writes the raw second moments. -/
private theorem flushed_gram (c : Dev nD) (t : Fin cfg0.N) (hf : (cfg0.win 2).flush t = true) :
    (dat0 V c).flushed 2 t = ((cfg0.win 2).blk t).view.read (Elt Ideal) (Term.gramV (V c main_arg0)) := by
  have hN : cfg0.N = 64 := N_0
  have h63 : t.val = 63 := by have := (flush0_2 t).mp hf; have := t.isLt; omega
  obtain rfl : t = tLast := Fin.ext h63
  have hz' : (fun a => win0_2.index tLast a * main_v0_1.ty.shape.size a) = fun _ => 0 :=
    funext fun a => by fin_cases a <;> decide
  refine Eq.trans ?_ (Memref.read_access_unit_zero (Elt Ideal) main_v0_1 hz' (fun a => by rw [congrFun hz' a]; simp)
    (Term.gramV (V c main_arg0))).symm
  show (cfg0.win 2).cut (grid0.coords tLast) ((dat0 V c).after 2 tLast) = _
  rw [after0_2]
  refine funext fun (y : S64x64.Idx) => ?_
  show (outsAt0 V c 63 tLast.isLt).2 y = Term.gramV (V c main_arg0) y
  obtain ⟨i, j, rfl⟩ : ∃ (i j : Fin 64), y = ix2 i j := ⟨y 0, y 1, eq_ix2 y⟩
  rw [gram_inv V c 63 tLast.isLt i j, sum_gramTerm V c i j]
  rfl

/-- After the region the first result array holds the channel sums of the input as the region found it. -/
theorem sumx_final (c : Dev nD) : (dat0 V c).arrAt 1 cfg0.N = Term.sumxV (V c main_arg0) :=
  (dat0 V c).arrAt_eq_of_cover 1 (Term.sumxV (V c main_arg0)) (flushed_col V c) fun y =>
    ⟨tLast, (flush0_1 tLast).mpr rfl, by
      show y ∈ ((View.whole main_v0_0).slice (win0_1.rect tLast)).set
      rw [View.set_slice_whole, Rect.mem_set_unit]
      intro a
      have y0 : (y 0 : Nat) < 64 := (y 0).isLt
      have y1 : (y 1 : Nat) < 1 := (y 1).isLt
      match a with
      | ⟨0, _⟩ =>
        show win0_1.index tLast 0 * win0_1.size 0 ≤ (y 0 : Nat)
          ∧ (y 0 : Nat) < win0_1.index tLast 0 * win0_1.size 0 + win0_1.xsize (grid0.coords tLast) 0
        rw [show win0_1.index tLast 0 * win0_1.size 0 = 0 from by decide +kernel,
          show win0_1.xsize (grid0.coords tLast) 0 = 64 from by decide +kernel]
        omega
      | ⟨1, _⟩ =>
        show win0_1.index tLast 1 * win0_1.size 1 ≤ (y 1 : Nat)
          ∧ (y 1 : Nat) < win0_1.index tLast 1 * win0_1.size 1 + win0_1.xsize (grid0.coords tLast) 1
        rw [show win0_1.index tLast 1 * win0_1.size 1 = 0 from by decide +kernel,
          show win0_1.xsize (grid0.coords tLast) 1 = 1 from by decide +kernel]
        omega⟩

/-- And the second the raw second moments. -/
theorem gram_final (c : Dev nD) : (dat0 V c).arrAt 2 cfg0.N = Term.gramV (V c main_arg0) :=
  (dat0 V c).arrAt_eq_of_cover 2 (Term.gramV (V c main_arg0)) (flushed_gram V c) fun y =>
    ⟨tLast, (flush0_2 tLast).mpr rfl, by
      show y ∈ ((View.whole main_v0_1).slice (win0_2.rect tLast)).set
      rw [View.set_slice_whole, Rect.mem_set_unit]
      intro a
      have y0 : (y 0 : Nat) < 64 := (y 0).isLt
      have y1 : (y 1 : Nat) < 64 := (y 1).isLt
      match a with
      | ⟨0, _⟩ =>
        show win0_2.index tLast 0 * win0_2.size 0 ≤ (y 0 : Nat)
          ∧ (y 0 : Nat) < win0_2.index tLast 0 * win0_2.size 0 + win0_2.xsize (grid0.coords tLast) 0
        rw [show win0_2.index tLast 0 * win0_2.size 0 = 0 from by decide +kernel,
          show win0_2.xsize (grid0.coords tLast) 0 = 64 from by decide +kernel]
        omega
      | ⟨1, _⟩ =>
        show win0_2.index tLast 1 * win0_2.size 1 ≤ (y 1 : Nat)
          ∧ (y 1 : Nat) < win0_2.index tLast 1 * win0_2.size 1 + win0_2.xsize (grid0.coords tLast) 1
        rw [show win0_2.index tLast 1 * win0_2.size 1 = 0 from by decide +kernel,
          show win0_2.xsize (grid0.coords tLast) 1 = 64 from by decide +kernel]
        omega⟩

end Cert.KernelIdeal.Region0

end
-- ==== Proof.KerRegion1.lean ====
/-
  The second grid computation's value.  Point t reads image t, the whole 64 × 64 matrix and the whole bias column, and
  writes image t of the result: the matrix applied across the channels at each of the 12544 positions, less the bias of
  the output channel.  The 64 blocks tile the result array, so after the region it holds that function of the three
  arrays at every entry.
-/
import proofs.«117467_j51127290691774_1_alg».proof.Proof.KerTerm
import proofs.«117467_j51127290691774_1_alg».proof.Proof.KerPayload
import proofs.«117467_j51127290691774_1_alg».proof.Proof.Gen.KernelIdeal.Frame
import Idealize.ShloMosaic.Lib.Pipeline.Value
import Idealize.ShloMosaic.Lib.ValueLayout

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Whiten

variable (V : (c : Dev nD) → (b : Ref sig .tc) → Buf (Elt Ideal) ((c : Thread nD τ).loc b))

/-- The zero offsets of a rank-4 block, as the constant zero. -/
private theorem zeros4 : (![0, 0, 0, 0] : Fin 4 → Nat) = fun _ => 0 := funext fun a => by fin_cases a <;> rfl
/-- The zero offsets of a rank-2 block, as the constant zero. -/
private theorem zeros2 : (![0, 0] : Fin 2 → Nat) = fun _ => 0 := funext fun a => by fin_cases a <;> rfl

/-- The block indices over the grid: point t takes image t of the input and writes image t of the result, whole in the
    other three axes; the matrix and the bias column are one block each, taken at every point. -/
private theorem block_indices : ∀ t : Fin cfg1.N,
    win1_0.index t (0 : Fin 4) = t.val ∧ win1_0.index t (1 : Fin 4) = 0
    ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = t.val ∧ win1_3.index t (1 : Fin 4) = 0
    ∧ win1_3.index t (2 : Fin 4) = 0 ∧ win1_3.index t (3 : Fin 4) = 0 :=
  (by decide +kernel : ∀ t : Fin grid1.N, _)

/-- The function the result array ends holding, at an index given by its four coordinates. -/
private theorem applyV_ix4 (x : FVec Ideal S64x64x112x112 .f32) (wm : FVec Ideal S64x64 .f32)
    (bias : FVec Ideal S64x1 .f32) (b cc : Fin 64) (h w : Fin 112) :
    Term.applyV x wm bias (ix4 b cc h w)
      = (∑ k : Fin 64, wm (ix2 cc k) * x (ix4 b k h w)) - bias (ix2 cc (0 : Fin 1)) := rfl

/-- Point t's block of the input is image t: entry (k, h, w) of the block is entry (t, k, h, w) of the array. -/
private theorem image_block (c : Dev nD) (t : Fin cfg1.N) (ht : t.val < 64) (k : Fin 64) (h w : Fin 112) :
    iblk1 V c 0 t (ix4 (0 : Fin 1) k h w) = V c main_arg0 (ix4 (⟨t.val, ht⟩ : Fin 64) k h w) := by
  obtain ⟨e0, e1, e2, e3, -⟩ := block_indices t
  unfold iblk1
  rw [View.read_apply]
  show V c main_arg0 _ = V c main_arg0 _
  congr 1
  funext a; apply Fin.ext
  match a with
  | ⟨0, _⟩ => show win1_0.index t (0 : Fin 4) * 1 + 1 * 0 = t.val; omega
  | ⟨1, _⟩ => show win1_0.index t (1 : Fin 4) * 64 + 1 * k.val = k.val; omega
  | ⟨2, _⟩ => show win1_0.index t (2 : Fin 4) * 112 + 1 * h.val = h.val; omega
  | ⟨3, _⟩ => show win1_0.index t (3 : Fin 4) * 112 + 1 * w.val = w.val; omega

/-- Every point's block of the matrix is the whole matrix. -/
private theorem matrix_block (c : Dev nD) (t : Fin cfg1.N) (i k : Fin 64) :
    iblk1 V c 1 t (ix2 i k) = V c main_v63 (ix2 i k) := by
  obtain ⟨-, -, -, -, e0, e1, -⟩ := block_indices t
  unfold iblk1
  rw [View.read_apply]
  show V c main_v63 _ = V c main_v63 _
  congr 1
  funext a; apply Fin.ext
  match a with
  | ⟨0, _⟩ => show win1_1.index t (0 : Fin 2) * 64 + 1 * i.val = i.val; omega
  | ⟨1, _⟩ => show win1_1.index t (1 : Fin 2) * 64 + 1 * k.val = k.val; omega

/-- Every point's block of the bias column is the whole column. -/
private theorem bias_block (c : Dev nD) (t : Fin cfg1.N) (i : Fin 64) (u : Fin 1) :
    iblk1 V c 2 t (ix2 i u) = V c main_v64 (ix2 i u) := by
  obtain ⟨-, -, -, -, -, -, e0, e1, -⟩ := block_indices t
  unfold iblk1
  rw [View.read_apply]
  show V c main_v64 _ = V c main_v64 _
  congr 1
  funext a; apply Fin.ext
  match a with
  | ⟨0, _⟩ => show win1_2.index t (0 : Fin 2) * 64 + 1 * i.val = i.val; omega
  | ⟨1, _⟩ => show win1_2.index t (1 : Fin 2) * 1 + 1 * u.val = u.val; omega

/-- Entry (u, i, h, w) of point t's block of the result array is entry (t, i, h, w) of the array. -/
private theorem result_block_index (t : Fin cfg1.N) (ht : t.val < 64) (u : Fin 1) (i : Fin 64) (h w : Fin 112) :
    ((cfg1.win 3).blk t).view.emb (ix4 u i h w) = ix4 (⟨t.val, ht⟩ : Fin 64) i h w := by
  obtain ⟨-, -, -, -, -, -, -, -, e0, e1, e2, e3⟩ := block_indices t
  funext a; apply Fin.ext
  match a with
  | ⟨0, _⟩ => show win1_3.index t (0 : Fin 4) * 1 + 1 * u.val = t.val; have := u.isLt; omega
  | ⟨1, _⟩ => show win1_3.index t (1 : Fin 4) * 64 + 1 * i.val = i.val; omega
  | ⟨2, _⟩ => show win1_3.index t (2 : Fin 4) * 112 + 1 * h.val = h.val; omega
  | ⟨3, _⟩ => show win1_3.index t (3 : Fin 4) * 112 + 1 * w.val = w.val; omega

/-- What point t writes back is block t of the function of the three arrays as the region found them. -/
private theorem written_block (c : Dev nD) (t : Fin cfg1.N) :
    (dat1 V c).flushed 3 t
      = ((cfg1.win 3).blk t).view.read (Elt Ideal)
          (Term.applyV (V c main_arg0) (V c main_v63) (V c main_v64)) := by
  have ht : t.val < 64 := lt_of_lt_of_eq t.isLt N_1
  show (cfg1.win 3).cut (grid1.coords t) ((dat1 V c).after 3 t) = _
  rw [after1_3]
  unfold out1_3
  rw [View.canon_unit_zero zeros4, View.ld_unit_zero (S := S1x64x112x112) zeros4,
    View.ld_unit_zero (S := S64x64) zeros2, View.ld_unit_zero (S := S64x1) zeros2]
  funext j
  revert j
  show ∀ j : S1x64x112x112.Idx, k1_pay1 (iblk1 V c 0 t) (iblk1 V c 1 t) (iblk1 V c 2 t) j
      = ((cfg1.win 3).blk t).view.read (Elt Ideal) (Term.applyV (V c main_arg0) (V c main_v63) (V c main_v64)) j
  intro j
  obtain ⟨u, i, h, w, rfl⟩ : ∃ (u : Fin 1) (i : Fin 64) (h w : Fin 112), j = ix4 u i h w :=
    ⟨_, _, _, _, eq_ix4 j⟩
  rw [View.read_apply, result_block_index t ht, applyV_ix4, Payload.k1_pay1_apply]
  simp only [image_block V c t ht, matrix_block V c t, bias_block V c t]
  rfl

/-- Every entry of the result array lies in the block of the point numbered by its image. -/
private theorem blocks_cover (i : S64x64x112x112.Idx) :
    ∃ t : Fin cfg1.N, (cfg1.win 3).flush t = true ∧ i ∈ ((cfg1.win 3).blk t).view.set := by
  have hb : (i 0).val < cfg1.N := lt_of_lt_of_eq (i 0).isLt N_1.symm
  refine ⟨⟨(i 0).val, hb⟩, flush1_3 _, ?_⟩
  obtain ⟨-, -, -, -, -, -, -, -, e0, e1, e2, e3⟩ := block_indices ⟨(i 0).val, hb⟩
  have e0 : win1_3.index ⟨(i 0).val, hb⟩ (0 : Fin 4) = (i 0).val := e0
  have h1 : (i 1).val < 64 := (i 1).isLt
  have h2 : (i 2).val < 112 := (i 2).isLt
  have h3 : (i 3).val < 112 := (i 3).isLt
  show i ∈ ((View.whole main_v65).slice (win1_3.rect ⟨(i 0).val, hb⟩)).set
  rw [View.set_slice_whole, Rect.mem_set_unit]
  intro a
  match a with
  | ⟨0, _⟩ =>
    show win1_3.index ⟨(i 0).val, hb⟩ (0 : Fin 4) * 1 ≤ (i 0).val
      ∧ (i 0).val < win1_3.index ⟨(i 0).val, hb⟩ (0 : Fin 4) * 1 + 1
    omega
  | ⟨1, _⟩ =>
    show win1_3.index ⟨(i 0).val, hb⟩ (1 : Fin 4) * 64 ≤ (i 1).val
      ∧ (i 1).val < win1_3.index ⟨(i 0).val, hb⟩ (1 : Fin 4) * 64 + 64
    omega
  | ⟨2, _⟩ =>
    show win1_3.index ⟨(i 0).val, hb⟩ (2 : Fin 4) * 112 ≤ (i 2).val
      ∧ (i 2).val < win1_3.index ⟨(i 0).val, hb⟩ (2 : Fin 4) * 112 + 112
    omega
  | ⟨3, _⟩ =>
    show win1_3.index ⟨(i 0).val, hb⟩ (3 : Fin 4) * 112 ≤ (i 3).val
      ∧ (i 3).val < win1_3.index ⟨(i 0).val, hb⟩ (3 : Fin 4) * 112 + 112
    omega

/-- After the region the result array is the matrix applied to the input less the bias, of the arrays as the region found them. -/
theorem applied_final (c : Dev nD) :
    (dat1 V c).arrAt 3 cfg1.N = Term.applyV (V c main_arg0) (V c main_v63) (V c main_v64) :=
  (dat1 V c).arrAt_eq_of_cover 3 _ (fun t _ => written_block V c t) blocks_cover

end Cert.KernelIdeal.Region1

end
-- ==== Proof.KerHost.lean ====
/-
  The array operations between the two grid computations, read back: at the second computation's entry the matrix
  buffer holds the whitening matrix and the bias buffer the bias column, as the program's functions of the two
  accumulated arrays as the first computation left them, and the input array is still as launched.
-/
import proofs.«117467_j51127290691774_1_alg».proof.Proof.KerTerm
import proofs.«117467_j51127290691774_1_alg».proof.Proof.Gen.KernelIdeal.Frame
import Idealize.ShloMosaic.Lib.StableHlo.Run

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.Whiten

/-! ## Each stretch of array operations, from any contents `X` of the buffers -/

section Stretches

variable (X : Valuation τ sig (Elt Ideal))

/-- The first stretch leaves the means in their buffer. -/
private theorem s1_mean : StableHlo.after (hostOps1 (F := Ideal)) X (Proc.devRef .tc main_v2)
    = Term.meanK (X (Proc.devRef .tc main_v0_0)) := by
  dsimp only [hostOps1]
  after_results_simp
  rfl

/-- The first stretch leaves the covariance matrix in its buffer. -/
private theorem s1_sigma : StableHlo.after (hostOps1 (F := Ideal)) X (Proc.devRef .tc main_v16)
    = Term.sigmaK (X (Proc.devRef .tc main_v0_0)) (X (Proc.devRef .tc main_v0_1)) := by
  dsimp only [hostOps1]
  after_results_simp
  rfl

/-- The first stretch leaves the identity matrix in its buffer. -/
private theorem s1_eye : StableHlo.after (hostOps1 (F := Ideal)) X (Proc.devRef .tc main_v8)
    = Tail.eyeV bcast_S_S64x64 := by
  dsimp only [hostOps1]
  after_results_simp
  rfl

/-- The first stretch does not write the input array. -/
private theorem s1_arg0 : StableHlo.after (hostOps1 (F := Ideal)) X (Proc.devRef .tc main_arg0)
    = X (Proc.devRef .tc main_arg0) := by
  dsimp only [hostOps1]
  after_results_simp

/-- The second stretch (the trace function) leaves the trace of the covariance matrix in its buffer. -/
private theorem s2_trace : StableHlo.after (hostOps1_1 (F := Ideal)) X (Proc.devRef .tc main_v17)
    = Tail.traceV bcast_S_S64x64 reducesTo_S64x64_S_d0_1 h_S_ (X (Proc.devRef .tc main_v16)) := by
  dsimp only [hostOps1_1]
  after_results_simp
  rfl

/-- The second stretch writes none of the covariance matrix, the means, the identity matrix, the input array. -/
private theorem s2_sigma : StableHlo.after (hostOps1_1 (F := Ideal)) X (Proc.devRef .tc main_v16)
    = X (Proc.devRef .tc main_v16) := by
  dsimp only [hostOps1_1]
  after_results_simp
private theorem s2_mean : StableHlo.after (hostOps1_1 (F := Ideal)) X (Proc.devRef .tc main_v2)
    = X (Proc.devRef .tc main_v2) := by
  dsimp only [hostOps1_1]
  after_results_simp
private theorem s2_eye : StableHlo.after (hostOps1_1 (F := Ideal)) X (Proc.devRef .tc main_v8)
    = X (Proc.devRef .tc main_v8) := by
  dsimp only [hostOps1_1]
  after_results_simp
private theorem s2_arg0 : StableHlo.after (hostOps1_1 (F := Ideal)) X (Proc.devRef .tc main_arg0)
    = X (Proc.devRef .tc main_arg0) := by
  dsimp only [hostOps1_1]
  after_results_simp

/-- The third stretch: given the identity matrix and the trace of the covariance matrix in their buffers, it leaves
    the whitening matrix of the covariance matrix: r = 1 / trace, the matrix scaled by r, five steps from the
    identity, the scaling by √r. -/
private theorem s3_wm (h8 : X (Proc.devRef .tc main_v8) = Tail.eyeV bcast_S_S64x64)
    (h17 : X (Proc.devRef .tc main_v17)
      = Tail.traceV bcast_S_S64x64 reducesTo_S64x64_S_d0_1 h_S_ (X (Proc.devRef .tc main_v16))) :
    StableHlo.after (hostOps1_2 (F := Ideal)) X (Proc.devRef .tc main_v63)
      = Tail.whitenV bcast_S_S64x64 reducesTo_S64x64_S_d0_1 h_S_ dot_S64x64_S64x64_S64x64_1_0_0_1_n_n
          (X (Proc.devRef .tc main_v16)) := by
  dsimp only [hostOps1_2]
  after_results_simp
  rw [h8, h17]
  rfl

/-- The third stretch ends with the product of that matrix and the means, in the bias buffer. -/
private theorem s3_bias (w : FVec Ideal S64x64 .f32)
    (hw : StableHlo.after (hostOps1_2 (F := Ideal)) X (Proc.devRef .tc main_v63) = w) :
    StableHlo.after (hostOps1_2 (F := Ideal)) X (Proc.devRef .tc main_v64)
      = (Host.dotGeneral (F := Ideal) (φ₁ := .f32) (φ₂ := .f32) dot_S64x64_S64x1_S64x1_1_0_0_1_n_n none w
          (X (Proc.devRef .tc main_v2)) : FVec Ideal S64x1 .f32) := by
  subst hw
  dsimp only [hostOps1_2]
  after_results_simp

/-- The third stretch does not write the input array. -/
private theorem s3_arg0 : StableHlo.after (hostOps1_2 (F := Ideal)) X (Proc.devRef .tc main_arg0)
    = X (Proc.devRef .tc main_arg0) := by
  dsimp only [hostOps1_2]
  after_results_simp

end Stretches

variable (m : (ℓ : Loc nD τ sig) → Buf (Elt Ideal) ℓ) (ρ : Dev nD → PrngReg)

/-- At the second region's entry the matrix buffer holds the whitening matrix of the two accumulated arrays. -/
theorem W4_wm (c : Dev nD) : W4 m ρ c (Proc.devRef .tc main_v63)
    = Term.wmK (W1 m ρ c (Proc.devRef .tc main_v0_0)) (W1 m ρ c (Proc.devRef .tc main_v0_1)) := by
  have h8 : W3 m ρ c (Proc.devRef .tc main_v8) = Tail.eyeV bcast_S_S64x64 :=
    (s2_eye (W2 m ρ c)).trans (s1_eye (W1 m ρ c))
  have h16 : W3 m ρ c (Proc.devRef .tc main_v16)
      = Term.sigmaK (W1 m ρ c (Proc.devRef .tc main_v0_0)) (W1 m ρ c (Proc.devRef .tc main_v0_1)) :=
    (s2_sigma (W2 m ρ c)).trans (s1_sigma (W1 m ρ c))
  have h17 : W3 m ρ c (Proc.devRef .tc main_v17)
      = Tail.traceV bcast_S_S64x64 reducesTo_S64x64_S_d0_1 h_S_ (W3 m ρ c (Proc.devRef .tc main_v16)) :=
    (s2_trace (W2 m ρ c)).trans (congrArg _ (s2_sigma (W2 m ρ c)).symm)
  exact (s3_wm (W3 m ρ c) h8 h17).trans (congrArg _ h16)

/-- And the bias buffer the bias column. -/
theorem W4_bias (c : Dev nD) : W4 m ρ c (Proc.devRef .tc main_v64)
    = Term.biasK (W1 m ρ c (Proc.devRef .tc main_v0_0)) (W1 m ρ c (Proc.devRef .tc main_v0_1)) := by
  have h2 : W3 m ρ c (Proc.devRef .tc main_v2) = Term.meanK (W1 m ρ c (Proc.devRef .tc main_v0_0)) :=
    (s2_mean (W2 m ρ c)).trans (s1_mean (W1 m ρ c))
  refine (s3_bias (W3 m ρ c) _ (W4_wm m ρ c)).trans ?_
  rw [h2]
  rfl

/-- The input array is untouched up to the second region's entry. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := s3_arg0 (W3 m ρ c)
    _ = W2 m ρ c (Proc.devRef .tc main_arg0) := s2_arg0 (W2 m ρ c)
    _ = W1 m ρ c (Proc.devRef .tc main_arg0) := s1_arg0 (W1 m ρ c)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

end Cert.KernelIdeal.Host

end
-- ==== Proof.KerHostValue.lean ====
/-
  The kernel program's host-side functions read entry by entry on real data: with the accumulated column holding the
  channel totals and the accumulated matrix the raw second moments of a real input, the means are the channel means,
  the covariance is the raw-moment form of the specification's, the whitening matrix is the specification's of that
  covariance (the shared part, on a real matrix of positive trace), and the bias column is its product with the means.
-/
import proofs.«117467_j51127290691774_1_alg».proof.Proof.KerTerm
import Idealize.ShloMosaic.Lib.Pipeline.Value
import Idealize.ShloMosaic.Lib.ValueLayout

noncomputable section

namespace Cert.KernelIdeal.HostValue

open Idealize.ShloMosaic Idealize.ShloMosaic.TcCoe Idealize.SL.Sem Idealize.ShloMosaic.ValueIdx
open Idealize.ShloMosaic.Pipeline (Dat)
open Cert.KernelIdeal Cert.KernelIdeal.Gen Cert.Whiten

/-- A scalar spread over a whole shape reads, at every index, the scalar itself. -/
private theorem spread_apply {t : Shape} (h : S_.BroadcastsInDim t (![] : Fin 0 → Fin t.rank))
    (x : FVec Ideal S_ .f32) (j : t.Idx) : broadcastInDim t ![] h x j = x ix0 :=
  broadcastInDim_apply _ h x j ix0 (fun a => a.elim0)

/-- The element count N = 802816 spread over a shape. -/
private theorem count_apply {t : Shape} (h : S_.BroadcastsInDim t (![] : Fin 0 → Fin t.rank)) (j : t.Idx) :
    broadcastInDim t ![] h (constant (F := Ideal) S_ .f32 0x49440000#32) j = ((802816 : ℝ) : EReal) := by
  rw [spread_apply, constant_apply, Consts.ofBits_count]

/-- The host's quotient is taken entry by entry. -/
private theorem hostDivf_apply {s : Shape} (a b : FVec Ideal s .f32) (j : s.Idx) :
    Host.divf a b j = Ideal.div (a j) (b j) := rfl

/-- A real number divided by the element count stays the real quotient. -/
private theorem div_count (a : ℝ) : Ideal.div (a : EReal) ((802816 : ℝ) : EReal) = ((a / 802816 : ℝ) : EReal) := by
  rw [Ideal.div_coe (by norm_num), ← EReal.coe_mul, mul_one_div]

/-- The inclusion of the reals in the extended reals commutes with finite sums. -/
private theorem coe_sum {ι : Type} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

variable (X : Spec.Arr) (sx : FVec Ideal S64x1 .f32) (sxx : FVec Ideal S64x64 .f32)
  (hsx : ∀ c : Fin 64, sx (ix2 c 0) = ((Spec.total X c : ℝ) : EReal))
  (hsxx : ∀ i j : Fin 64, sxx (ix2 i j) = ((Spec.gram X i j : ℝ) : EReal))

include hsx in
/-- The means. -/
theorem meanK_apply (c : Fin 64) : Term.meanK sx (ix2 c 0) = ((Spec.mean X c : ℝ) : EReal) := by
  unfold Term.meanK
  rw [hostDivf_apply, hsx c, count_apply, div_count]
  rfl

include hsx hsxx in
/-- The covariance, in its raw-moment form. -/
theorem sigmaK_apply (i j : Fin 64) : Term.sigmaK sx sxx (ix2 i j) = ((Spec.covK X i j : ℝ) : EReal) := by
  unfold Term.sigmaK
  rw [subf_apply, addf_apply, mulf_apply, spread_apply, constant_apply, Consts.ofBits_eps, Tail.eyeV_apply,
    hostDivf_apply, hsxx i j, count_apply, div_count,
    LibPlainDot.dotGeneral_apply_of_plain dot_S64x1_S1x64_S64x64_1_0_0_1_n_n rfl none, Fin.sum_univ_one,
    transpose_apply [1, 0] (Term.meanK sx) transposes_S64x1_S1x64_1_0 (ix2 0 j) (ix2 j 0)
      (fun b => by fin_cases b <;> rfl),
    meanK_apply X sx hsx i, meanK_apply X sx hsx j, ← EReal.coe_mul, ← EReal.coe_add, ← EReal.coe_mul, ← EReal.coe_sub]
  rfl

include hsx hsxx in
/-- The whitening matrix. -/
theorem wmK_apply (i j : Fin 64) : Term.wmK sx sxx (ix2 i j) = ((Spec.whiten (Spec.covK X) i j : ℝ) : EReal) := by
  unfold Term.wmK
  refine Tail.whitenV_apply _ _ _ _ rfl (Term.sigmaK sx sxx) (Spec.covK X) (sigmaK_apply X sx sxx hsx hsxx) ?_ i j
  rw [Spec.covK_eq]
  exact Spec.tr_cov_pos X

include hsx hsxx in
/-- The bias column. -/
theorem biasK_apply (c : Fin 64) :
    Term.biasK sx sxx (ix2 c 0) = ((∑ k, Spec.whiten (Spec.covK X) c k * Spec.mean X k : ℝ) : EReal) := by
  unfold Term.biasK
  rw [LibPlainDot.dotGeneral_apply_of_plain dot_S64x64_S64x1_S64x1_1_0_0_1_n_n rfl none, coe_sum]
  refine Finset.sum_congr rfl fun k _ => ?_
  rw [wmK_apply X sx sxx hsx hsxx c k, meanK_apply X sx hsx k, EReal.coe_mul]

end Cert.KernelIdeal.HostValue

end
-- ==== Proof.KerValue.lean ====
/-
  The kernel program's result as one function of its input, and that function on a real input.

  The result array after the run is what the second grid computation's write-backs leave: the whitening matrix
  applied to the input less the bias, where the matrix and the bias are the program's functions of the two arrays the
  first grid computation accumulated, the channel totals and the raw second moments of the same input.  On a real input
  the totals and moments are real sums, the matrix is the specification's whitening matrix of the raw-moment covariance,
  the bias its product with the means, and the entry (b,c,h,w) is  (Σ_k W(c,k)·X(b,k,h,w)) − Σ_k W(c,k)·mean k,  which is
  the specification's  Σ_k W(c,k)·(X(b,k,h,w) − mean k)  by distributivity in the reals.
-/
import proofs.«117467_j51127290691774_1_alg».proof.Proof.KerLaunch
import proofs.«117467_j51127290691774_1_alg».proof.Proof.KerRegion0
import proofs.«117467_j51127290691774_1_alg».proof.Proof.KerRegion1
import proofs.«117467_j51127290691774_1_alg».proof.Proof.KerHost
import proofs.«117467_j51127290691774_1_alg».proof.Proof.KerHostValue

noncomputable section

namespace Cert.KernelIdeal.Value

open Idealize.ShloMosaic Idealize.ShloMosaic.TcCoe Idealize.SL.Sem Idealize.ShloMosaic.ValueIdx
open Cert.KernelIdeal Cert.KernelIdeal.Gen Cert.Whiten

variable (m : (ℓ : Loc nD τ sig) → Buf (Elt Ideal) ℓ) (ρ : Dev nD → PrngReg)

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The input array as launched. -/
abbrev xin (c : Dev nD) : FVec Ideal S64x64x112x112 .f32 := m ((c : Thread nD τ).loc main_arg0)

/-- The result array after the run, as a function of the launched input: the second computation's function of the
    input, of the whitening matrix and of the bias, these two the program's functions of the accumulated sums. -/
theorem result_eq (c : Dev nD) :
    W5 m ρ c (Proc.devRef .tc main_v65)
      = Term.applyV (xin m c) (Term.wmK (Term.sumxV (xin m c)) (Term.gramV (xin m c)))
          (Term.biasK (Term.sumxV (xin m c)) (Term.gramV (xin m c))) := by
  have h1 : W1 m ρ c (Proc.devRef .tc main_v0_0) = Term.sumxV (xin m c) :=
    (W1_arr m ρ c 1).trans (Region0.sumx_final (V0 m ρ) c)
  have h2 : W1 m ρ c (Proc.devRef .tc main_v0_1) = Term.gramV (xin m c) :=
    (W1_arr m ρ c 2).trans (Region0.gram_final (V0 m ρ) c)
  refine (W5_arr m ρ c 3).trans ((Region1.applied_final (V4 m ρ) c).trans ?_)
  show Term.applyV (W4 m ρ c (Proc.devRef .tc main_arg0)) (W4 m ρ c (Proc.devRef .tc main_v63))
      (W4 m ρ c (Proc.devRef .tc main_v64)) = _
  rw [Host.W4_arg0, Host.W4_wm, Host.W4_bias, h1, h2]

/-- On a real input the accumulated column holds the channel totals. -/
theorem sumx_real (X : Spec.Arr) (x : FVec Ideal S64x64x112x112 .f32)
    (hx : ∀ (b c : Fin 64) (h w : Fin 112), x (ix4 b c h w) = ((X b c h w : ℝ) : EReal)) (c : Fin 64) :
    Term.sumxV x (ix2 c 0) = ((Spec.total X c : ℝ) : EReal) := by
  unfold Term.sumxV Spec.total
  rw [coe_sum]
  refine Finset.sum_congr rfl fun b _ => ?_
  rw [coe_sum]
  refine Finset.sum_congr rfl fun h _ => ?_
  rw [coe_sum]
  exact Finset.sum_congr rfl fun w _ => hx b c h w

/-- And the accumulated matrix the raw second moments. -/
theorem gram_real (X : Spec.Arr) (x : FVec Ideal S64x64x112x112 .f32)
    (hx : ∀ (b c : Fin 64) (h w : Fin 112), x (ix4 b c h w) = ((X b c h w : ℝ) : EReal)) (i j : Fin 64) :
    Term.gramV x (ix2 i j) = ((Spec.gram X i j : ℝ) : EReal) := by
  unfold Term.gramV Spec.gram
  rw [coe_sum]
  refine Finset.sum_congr rfl fun b _ => ?_
  rw [coe_sum]
  refine Finset.sum_congr rfl fun h _ => ?_
  rw [coe_sum]
  refine Finset.sum_congr rfl fun w _ => ?_
  rw [EReal.coe_mul]
  exact congrArg₂ (· * ·) (hx b i h w) (hx b j h w)

/-- On a real input the program's result is the specification's whitened array, entry by entry. -/
theorem result_apply (c : Dev nD) (X : Spec.Arr)
    (hx : ∀ (b ch : Fin 64) (h w : Fin 112), xin m c (ix4 b ch h w) = ((X b ch h w : ℝ) : EReal))
    (b ch : Fin 64) (h w : Fin 112) :
    W5 m ρ c (Proc.devRef .tc main_v65) (ix4 b ch h w) = ((Spec.out X b ch h w : ℝ) : EReal) := by
  rw [result_eq]
  have hsx := sumx_real X (xin m c) hx
  have hsxx := gram_real X (xin m c) hx
  show ((∑ k : Fin 64, Term.wmK (Term.sumxV (xin m c)) (Term.gramV (xin m c)) (ix2 ch k) * xin m c (ix4 b k h w))
      - Term.biasK (Term.sumxV (xin m c)) (Term.gramV (xin m c)) (ix2 ch 0) : EReal) = _
  have hs : (∑ k : Fin 64, Term.wmK (Term.sumxV (xin m c)) (Term.gramV (xin m c)) (ix2 ch k) * xin m c (ix4 b k h w) : EReal)
      = ∑ k : Fin 64, ((Spec.whiten (Spec.covK X) ch k * X b k h w : ℝ) : EReal) :=
    Finset.sum_congr rfl fun k _ => by
      rw [HostValue.wmK_apply X _ _ hsx hsxx ch k, hx b k h w, EReal.coe_mul]
  rw [hs, HostValue.biasK_apply X _ _ hsx hsxx ch, Spec.out_eq_kernel, EReal.coe_sub, coe_sum, coe_sum]

end Cert.KernelIdeal.Value

end
-- ==== Proof.RefTerm.lean ====
/-
  The reference's value as one function of the input array, written with the reference's own array operations:
  the channel-major matrix x2 (channels as rows, the other three axes flattened), its row means, the centred matrix,
  the regularised covariance  ε·I + (xc·xcᵀ)/N,  the whitening matrix (the shared part), and the whitened matrix
  put back in image-major order.
-/
import proofs.«117467_j51127290691774_1_alg».proof.ReferenceIdeal
import proofs.«117467_j51127290691774_1_alg».proof.Proof.Gen.ReferenceIdeal
import proofs.«117467_j51127290691774_1_alg».proof.Proof.Tail

noncomputable section

namespace Cert.ReferenceIdeal.Term

open Idealize.ShloMosaic Cert.ReferenceIdeal Cert.ReferenceIdeal.Gen Cert.Whiten

/-- Channels as rows: the transpose to channel-major order, flattened to 64 × 802816. -/
def x2 (x : FVec Ideal S64x64x112x112 .f32) : FVec Ideal S64x802816 .f32 :=
  shapeCast S64x802816 (transpose S64x64x112x112 [1, 0, 2, 3] x transposes_S64x64x112x112_S64x64x112x112_1_0_2_3)
    shapeCasts_S64x64x112x112_S64x802816

/-- The row means, as a column. -/
def meanV (x : FVec Ideal S64x64x112x112 .f32) : FVec Ideal S64x1 .f32 :=
  Host.divf (broadcastInDim S64x1 ![0] bcast_S64_S64x1_0
      (Host.reduceAdd (x2 x) (constant S_ .f32 0x00000000#32) reducesTo_S64x802816_S64_d1 h_S_))
    (broadcastInDim S64x1 ![] bcast_S_S64x1 (constant S_ .f32 0x49440000#32))

/-- The centred matrix. -/
def xcV (x : FVec Ideal S64x64x112x112 .f32) : FVec Ideal S64x802816 .f32 :=
  subf (x2 x) (broadcastInDim S64x802816 ![0, 1] bcast_S64x1_S64x802816_0_1 (meanV x))

/-- The regularised covariance. -/
def sigmaV (x : FVec Ideal S64x64x112x112 .f32) : FVec Ideal S64x64 .f32 :=
  addf (mulf (broadcastInDim S64x64 ![] bcast_S_S64x64 (constant S_ .f32 0x3727C5AC#32)) (Tail.eyeV bcast_S_S64x64))
    (Host.divf (Host.dotGeneral dot_S64x802816_S802816x64_S64x64_1_0_0_1_n_n none (xcV x)
        (transpose S802816x64 [1, 0] (xcV x) transposes_S64x802816_S802816x64_1_0))
      (broadcastInDim S64x64 ![] bcast_S_S64x64 (constant S_ .f32 0x49440000#32)))

/-- The whitening matrix. -/
def wmV (x : FVec Ideal S64x64x112x112 .f32) : FVec Ideal S64x64 .f32 :=
  Tail.whitenV bcast_S_S64x64 reducesTo_S64x64_S_d0_1 h_S_ dot_S64x64_S64x64_S64x64_1_0_0_1_n_n (sigmaV x)

/-- The result: the whitened matrix, unflattened and put back in image-major order. -/
def outV (x : FVec Ideal S64x64x112x112 .f32) : FVec Ideal S64x64x112x112 .f32 :=
  transpose S64x64x112x112 [1, 0, 2, 3]
    (shapeCast S64x64x112x112 (Host.dotGeneral dot_S64x64_S64x802816_S64x802816_1_0_0_1_n_n none (wmV x) (xcV x))
      shapeCasts_S64x802816_S64x64x112x112)
    transposes_S64x64x112x112_S64x64x112x112_1_0_2_3

end Cert.ReferenceIdeal.Term

end
-- ==== Proof.RefRun.lean ====
/-
  The reference program run: its operations in order (the trace helper's and the selection helper's operations
  listed at their call), and the fact that every weakly fair execution ends with the result array holding the
  reference's value as one function of the input, the input unchanged.
-/
import proofs.«117467_j51127290691774_1_alg».proof.Proof.RefTerm
import Idealize.ShloMosaic.Lib.StableHlo.Run

noncomputable section

namespace Cert.ReferenceIdeal.Run

open Idealize.ShloMosaic Idealize.ShloMosaic.TcCoe Idealize.SL.Sem Idealize.ShloMosaic.ValueIdx Idealize.ShloMosaic.StableHlo
open Cert.ReferenceIdeal Cert.ReferenceIdeal.Gen Cert.Whiten

variable {F : FTy → Type} [FloatOps F]

/-! The contents types of the tensor values, by shape and element type. -/
set_option quotPrecheck false in
local notation "𝕋4" => ((⟨S64x64x112x112, .f32⟩ : BufTy).Contents (Elt F))
set_option quotPrecheck false in
local notation "𝕋2" => ((⟨S64x802816, .f32⟩ : BufTy).Contents (Elt F))
set_option quotPrecheck false in
local notation "𝕋t" => ((⟨S802816x64, .f32⟩ : BufTy).Contents (Elt F))
set_option quotPrecheck false in
local notation "𝕋M" => ((⟨S64x64, .f32⟩ : BufTy).Contents (Elt F))
set_option quotPrecheck false in
local notation "𝕋S" => ((⟨S_, .f32⟩ : BufTy).Contents (Elt F))
set_option quotPrecheck false in
local notation "𝕋V" => ((⟨S64, .f32⟩ : BufTy).Contents (Elt F))
set_option quotPrecheck false in
local notation "𝕋C" => ((⟨S64x1, .f32⟩ : BufTy).Contents (Elt F))
set_option quotPrecheck false in
local notation "𝕋I" => ((⟨S64x64, .i32⟩ : BufTy).Contents (Elt F))
set_option quotPrecheck false in
local notation "𝕋J" => ((⟨S_, .i32⟩ : BufTy).Contents (Elt F))
set_option quotPrecheck false in
local notation "𝕋B" => ((⟨S64x64, .i1⟩ : BufTy).Contents (Elt F))

/-- The reference's ninety-seven operations in order. The first ten centre the channel-major matrix; the next sixteen
    form the identity matrix and the regularised covariance; the eleven after that are the trace helper's (its own
    diagonal mask, the selection helper's one selection, the sum of what is kept); then the reciprocal of the trace
    and the normalised matrix, five Newton–Schulz steps of ten operations each, the square root and the scaling,
    and last the product with the centred matrix, unflattened and put back in image-major order. -/
abbrev ops : List (HloOp τ sig (Elt F)) :=
  [
    unary main_arg0 main_v0 ((transpose S64x64x112x112 [1, 0, 2, 3] · transposes_S64x64x112x112_S64x64x112x112_1_0_2_3) : 𝕋4 → 𝕋4),
    reshape main_v0 main_v1 rfl shapeCasts_S64x64x112x112_S64x802816,
    nullary main_cst (constant S_ .f32 0x00000000#32),
    binary main_v1 main_cst main_v2 ((fun x v => Host.reduceAdd x v reducesTo_S64x802816_S64_d1 h_S_) : 𝕋2 → 𝕋S → 𝕋V),
    unary main_v2 main_v3 (broadcastInDim S64x1 ![0] bcast_S64_S64x1_0 : 𝕋V → 𝕋C),
    nullary main_cst_0 (constant S_ .f32 0x49440000#32),
    unary main_cst_0 main_v4 (broadcastInDim S64x1 ![] bcast_S_S64x1 : 𝕋S → 𝕋C),
    binary main_v3 main_v4 main_v5 (Host.divf : 𝕋C → 𝕋C → 𝕋C),
    unary main_v5 main_v6 (broadcastInDim S64x802816 ![0, 1] bcast_S64x1_S64x802816_0_1 : 𝕋C → 𝕋2),
    binary main_v1 main_v6 main_v7 (subf : 𝕋2 → 𝕋2 → 𝕋2),
    nullary main_v8 (iotaInDim S64x64 32 0),
    nullary main_v9 (iotaInDim S64x64 32 1),
    nullary main_c (constantI S_ 32 0#32),
    unary main_c main_v10 (broadcastInDim S64x64 ![] bcast_S_S64x64 : 𝕋J → 𝕋I),
    binary main_v8 main_v10 main_v11 (addi : 𝕋I → 𝕋I → 𝕋I),
    binary main_v11 main_v9 main_v12 (cmpi .eq : 𝕋I → 𝕋I → 𝕋B),
    unary main_v12 main_v13 (uitofp .f32 : 𝕋B → 𝕋M),
    nullary main_cst_1 (constant S_ .f32 0x3727C5AC#32),
    unary main_cst_1 main_v14 (broadcastInDim S64x64 ![] bcast_S_S64x64 : 𝕋S → 𝕋M),
    binary main_v14 main_v13 main_v15 (mulf : 𝕋M → 𝕋M → 𝕋M),
    unary main_v7 main_v16 ((transpose S802816x64 [1, 0] · transposes_S64x802816_S802816x64_1_0) : 𝕋2 → 𝕋t),
    binary main_v7 main_v16 main_v17 ((fun l r => Host.dotGeneral dot_S64x802816_S802816x64_S64x64_1_0_0_1_n_n none l r) : 𝕋2 → 𝕋t → 𝕋M),
    nullary main_cst_2 (constant S_ .f32 0x49440000#32),
    unary main_cst_2 main_v18 (broadcastInDim S64x64 ![] bcast_S_S64x64 : 𝕋S → 𝕋M),
    binary main_v17 main_v18 main_v19 (Host.divf : 𝕋M → 𝕋M → 𝕋M),
    binary main_v15 main_v19 main_v20 (addf : 𝕋M → 𝕋M → 𝕋M),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v20) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_),
    nullary main_cst_3 (constant S_ .f32 0x3F800000#32),
    binary main_cst_3 main_v21 main_v22 (Host.divf : 𝕋S → 𝕋S → 𝕋S),
    unary main_v22 main_v23 (broadcastInDim S64x64 ![] bcast_S_S64x64 : 𝕋S → 𝕋M),
    binary main_v20 main_v23 main_v24 (mulf : 𝕋M → 𝕋M → 𝕋M),
    binary main_v13 main_v13 main_v25 ((fun l r => Host.dotGeneral dot_S64x64_S64x64_S64x64_1_0_0_1_n_n none l r) : 𝕋M → 𝕋M → 𝕋M),
    binary main_v25 main_v13 main_v26 ((fun l r => Host.dotGeneral dot_S64x64_S64x64_S64x64_1_0_0_1_n_n none l r) : 𝕋M → 𝕋M → 𝕋M),
    nullary main_cst_4 (constant S_ .f32 0x3FC00000#32),
    unary main_cst_4 main_v27 (broadcastInDim S64x64 ![] bcast_S_S64x64 : 𝕋S → 𝕋M),
    binary main_v27 main_v13 main_v28 (mulf : 𝕋M → 𝕋M → 𝕋M),
    binary main_v26 main_v24 main_v29 ((fun l r => Host.dotGeneral dot_S64x64_S64x64_S64x64_1_0_0_1_n_n none l r) : 𝕋M → 𝕋M → 𝕋M),
    nullary main_cst_5 (constant S_ .f32 0x3F000000#32),
    unary main_cst_5 main_v30 (broadcastInDim S64x64 ![] bcast_S_S64x64 : 𝕋S → 𝕋M),
    binary main_v30 main_v29 main_v31 (mulf : 𝕋M → 𝕋M → 𝕋M),
    binary main_v28 main_v31 main_v32 (subf : 𝕋M → 𝕋M → 𝕋M),
    binary main_v32 main_v32 main_v33 ((fun l r => Host.dotGeneral dot_S64x64_S64x64_S64x64_1_0_0_1_n_n none l r) : 𝕋M → 𝕋M → 𝕋M),
    binary main_v33 main_v32 main_v34 ((fun l r => Host.dotGeneral dot_S64x64_S64x64_S64x64_1_0_0_1_n_n none l r) : 𝕋M → 𝕋M → 𝕋M),
    nullary main_cst_6 (constant S_ .f32 0x3FC00000#32),
    unary main_cst_6 main_v35 (broadcastInDim S64x64 ![] bcast_S_S64x64 : 𝕋S → 𝕋M),
    binary main_v35 main_v32 main_v36 (mulf : 𝕋M → 𝕋M → 𝕋M),
    binary main_v34 main_v24 main_v37 ((fun l r => Host.dotGeneral dot_S64x64_S64x64_S64x64_1_0_0_1_n_n none l r) : 𝕋M → 𝕋M → 𝕋M),
    nullary main_cst_7 (constant S_ .f32 0x3F000000#32),
    unary main_cst_7 main_v38 (broadcastInDim S64x64 ![] bcast_S_S64x64 : 𝕋S → 𝕋M),
    binary main_v38 main_v37 main_v39 (mulf : 𝕋M → 𝕋M → 𝕋M),
    binary main_v36 main_v39 main_v40 (subf : 𝕋M → 𝕋M → 𝕋M),
    binary main_v40 main_v40 main_v41 ((fun l r => Host.dotGeneral dot_S64x64_S64x64_S64x64_1_0_0_1_n_n none l r) : 𝕋M → 𝕋M → 𝕋M),
    binary main_v41 main_v40 main_v42 ((fun l r => Host.dotGeneral dot_S64x64_S64x64_S64x64_1_0_0_1_n_n none l r) : 𝕋M → 𝕋M → 𝕋M),
    nullary main_cst_8 (constant S_ .f32 0x3FC00000#32),
    unary main_cst_8 main_v43 (broadcastInDim S64x64 ![] bcast_S_S64x64 : 𝕋S → 𝕋M),
    binary main_v43 main_v40 main_v44 (mulf : 𝕋M → 𝕋M → 𝕋M),
    binary main_v42 main_v24 main_v45 ((fun l r => Host.dotGeneral dot_S64x64_S64x64_S64x64_1_0_0_1_n_n none l r) : 𝕋M → 𝕋M → 𝕋M),
    nullary main_cst_9 (constant S_ .f32 0x3F000000#32),
    unary main_cst_9 main_v46 (broadcastInDim S64x64 ![] bcast_S_S64x64 : 𝕋S → 𝕋M),
    binary main_v46 main_v45 main_v47 (mulf : 𝕋M → 𝕋M → 𝕋M),
    binary main_v44 main_v47 main_v48 (subf : 𝕋M → 𝕋M → 𝕋M),
    binary main_v48 main_v48 main_v49 ((fun l r => Host.dotGeneral dot_S64x64_S64x64_S64x64_1_0_0_1_n_n none l r) : 𝕋M → 𝕋M → 𝕋M),
    binary main_v49 main_v48 main_v50 ((fun l r => Host.dotGeneral dot_S64x64_S64x64_S64x64_1_0_0_1_n_n none l r) : 𝕋M → 𝕋M → 𝕋M),
    nullary main_cst_10 (constant S_ .f32 0x3FC00000#32),
    unary main_cst_10 main_v51 (broadcastInDim S64x64 ![] bcast_S_S64x64 : 𝕋S → 𝕋M),
    binary main_v51 main_v48 main_v52 (mulf : 𝕋M → 𝕋M → 𝕋M),
    binary main_v50 main_v24 main_v53 ((fun l r => Host.dotGeneral dot_S64x64_S64x64_S64x64_1_0_0_1_n_n none l r) : 𝕋M → 𝕋M → 𝕋M),
    nullary main_cst_11 (constant S_ .f32 0x3F000000#32),
    unary main_cst_11 main_v54 (broadcastInDim S64x64 ![] bcast_S_S64x64 : 𝕋S → 𝕋M),
    binary main_v54 main_v53 main_v55 (mulf : 𝕋M → 𝕋M → 𝕋M),
    binary main_v52 main_v55 main_v56 (subf : 𝕋M → 𝕋M → 𝕋M),
    binary main_v56 main_v56 main_v57 ((fun l r => Host.dotGeneral dot_S64x64_S64x64_S64x64_1_0_0_1_n_n none l r) : 𝕋M → 𝕋M → 𝕋M),
    binary main_v57 main_v56 main_v58 ((fun l r => Host.dotGeneral dot_S64x64_S64x64_S64x64_1_0_0_1_n_n none l r) : 𝕋M → 𝕋M → 𝕋M),
    nullary main_cst_12 (constant S_ .f32 0x3FC00000#32),
    unary main_cst_12 main_v59 (broadcastInDim S64x64 ![] bcast_S_S64x64 : 𝕋S → 𝕋M),
    binary main_v59 main_v56 main_v60 (mulf : 𝕋M → 𝕋M → 𝕋M),
    binary main_v58 main_v24 main_v61 ((fun l r => Host.dotGeneral dot_S64x64_S64x64_S64x64_1_0_0_1_n_n none l r) : 𝕋M → 𝕋M → 𝕋M),
    nullary main_cst_13 (constant S_ .f32 0x3F000000#32),
    unary main_cst_13 main_v62 (broadcastInDim S64x64 ![] bcast_S_S64x64 : 𝕋S → 𝕋M),
    binary main_v62 main_v61 main_v63 (mulf : 𝕋M → 𝕋M → 𝕋M),
    binary main_v60 main_v63 main_v64 (subf : 𝕋M → 𝕋M → 𝕋M),
    unary main_v22 main_v65 (Host.sqrt : 𝕋S → 𝕋S),
    unary main_v65 main_v66 (broadcastInDim S64x64 ![] bcast_S_S64x64 : 𝕋S → 𝕋M),
    binary main_v64 main_v66 main_v67 (mulf : 𝕋M → 𝕋M → 𝕋M),
    binary main_v67 main_v7 main_v68 ((fun l r => Host.dotGeneral dot_S64x64_S64x802816_S64x802816_1_0_0_1_n_n none l r) : 𝕋M → 𝕋2 → 𝕋2),
    reshape main_v68 main_v69 rfl shapeCasts_S64x802816_S64x64x112x112,
    unary main_v69 main_v70 ((transpose S64x64x112x112 [1, 0, 2, 3] · transposes_S64x64x112x112_S64x64x112x112_1_0_2_3) : 𝕋4 → 𝕋4) ]

-- ninety-seven binds re-associated: the rewrite under the chain recurses once per statement
set_option maxRecDepth 8192 in
set_option maxHeartbeats 4000000 in
/-- The program is that straight line: the two windows, the trace helper and the selection helper unfolded at their
    calls, both sides are one chain of steps once sequencing is re-associated. -/
theorem main_eq (c : Dev nD) : main (F := F) c = seq ops := by
  simp only [main, main_part0, main_part1, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor values of the program only. -/
theorem ops_sub : (ops : List (HloOp τ sig (Elt F))).Forall fun op => op.bufs ⊆ tcRefs τ sig :=
  ⟨unary_bufs_sub .., reshape_bufs_sub .., nullary_bufs_sub .., binary_bufs_sub .., unary_bufs_sub .., nullary_bufs_sub ..,
    unary_bufs_sub .., binary_bufs_sub .., unary_bufs_sub .., binary_bufs_sub .., nullary_bufs_sub .., nullary_bufs_sub ..,
    nullary_bufs_sub .., unary_bufs_sub .., binary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., nullary_bufs_sub .., binary_bufs_sub .., unary_bufs_sub .., binary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., unary_bufs_sub .., unary_bufs_sub .., binary_bufs_sub .., binary_bufs_sub .., reshape_bufs_sub ..,
    unary_bufs_sub ..⟩

-- the sums, quotients, square root and layout operations are kept as atoms: the two sides agree operation by operation
attribute [local irreducible] Host.reduceAdd Host.divf Host.sqrt transpose shapeCast broadcastInDim Ideal.matmul Ideal.hostReduceAdd in
set_option maxRecDepth 8192 in
set_option maxHeartbeats 4000000 in
/-- What the result array holds after the line, from any contents: the reference's value of the input array. -/
theorem out_eq (V : Valuation τ sig (Elt Ideal)) :
    after ops V (main_v70 : DevRef τ sig) = Term.outV (V (main_arg0 : DevRef τ sig)) := by
  after_results_simp
  rfl

set_option maxRecDepth 8192 in
/-- No operation writes the input array. -/
theorem arg0_eq (V : Valuation τ sig (Elt Ideal)) :
    after ops V (main_arg0 : DevRef τ sig) = V (main_arg0 : DevRef τ sig) := by
  after_results_simp

/-- Every weakly fair execution of the reference terminates with the result at its value and the input unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = Term.outV (m ((c.tc : Thread nD τ).loc main_arg0))
      ∧ r.2.mem ((c.tc : Thread nD τ).loc main_arg0) = m ((c.tc : Thread nD τ).loc main_arg0) := by
  exact (θ_run defs _ _).mono
    (fun _ h c => ⟨(h c main_v70).trans (out_eq _), (h c main_arg0).trans (arg0_eq _)⟩)
    (run_seq scopedRefs_eq scopedSems_eq defs main (fun _ => ops) main_eq (fun _ => ops_sub) m ρ)

end Cert.ReferenceIdeal.Run

end
-- ==== Proof.RefValue.lean ====
/-
  The reference's value read entry by entry on a real input: the channel-major matrix's row c, position
  (b·112 + h)·112 + w, is X(b,c,h,w); the row means are the channel means; the product of the centred matrix with
  its transpose, summed over the 802816 positions, is the triple sum over images, rows and columns; so the covariance
  is the specification's, the whitening matrix the specification's (the shared part on a real matrix of positive
  trace), and the result entry (b,c,h,w) is  Σ_k W(c,k)·(X(b,k,h,w) − mean k).
-/
import proofs.«117467_j51127290691774_1_alg».proof.Proof.RefTerm
import Idealize.ShloMosaic.Lib.Pipeline.Value
import Idealize.ShloMosaic.Lib.ValueLayout
import Idealize.ShloMosaic.Lib.IdealHost
import Mathlib.Logic.Equiv.Fin.Basic
import Mathlib.Data.Fintype.BigOperators
import Mathlib.Algebra.BigOperators.Group.Finset.Defs

noncomputable section

namespace Cert.ReferenceIdeal.Value

open Idealize.ShloMosaic Idealize.ShloMosaic.TcCoe Idealize.SL.Sem Idealize.ShloMosaic.ValueIdx Idealize.ShloMosaic.StableHlo
open Cert.ReferenceIdeal Cert.ReferenceIdeal.Gen Cert.Whiten

/-! ## Positions within a channel

A channel's 802816 entries are numbered image first, then row, then column: entry (b, h, w) sits at
(b·112 + h)·112 + w.  Every position is of that form exactly once, so a sum over the positions is the triple sum
over images, rows and columns. -/

/-- The position of (image b, row h, column w) among a channel's 802816 entries. -/
private def pos (b : Fin 64) (h w : Fin 112) : Fin 802816 :=
  ⟨(b.val * 112 + h.val) * 112 + w.val, by have := b.isLt; have := h.isLt; have := w.isLt; omega⟩

/-- Triples (image, row, column) against positions: two steps of "pair ↦ first·112 + second". -/
private def posEquiv : (Fin 64 × Fin 112) × Fin 112 ≃ Fin 802816 :=
  (Equiv.prodCongr (finProdFinEquiv (m := 64) (n := 112)) (Equiv.refl (Fin 112))).trans
    (finProdFinEquiv (m := 64 * 112) (n := 112))

/-- That bijection sends (b, h, w) to (b·112 + h)·112 + w. -/
private theorem posEquiv_apply (b : Fin 64) (h w : Fin 112) : posEquiv ((b, h), w) = pos b h w := by
  refine Fin.ext ?_
  simp [posEquiv, pos, finProdFinEquiv]
  ring

/-- A sum over the 802816 positions is the triple sum over images, rows and columns. -/
private theorem sum_pos {M : Type*} [AddCommMonoid M] (f : Fin 802816 → M) :
    ∑ p, f p = ∑ b : Fin 64, ∑ h : Fin 112, ∑ w : Fin 112, f (pos b h w) := by
  rw [← Equiv.sum_comp posEquiv f, Fintype.sum_prod_type, Fintype.sum_prod_type]
  refine Finset.sum_congr rfl fun b _ => Finset.sum_congr rfl fun h _ => Finset.sum_congr rfl fun w _ => ?_
  rw [posEquiv_apply]

/-- The inclusion of the reals in the extended reals commutes with finite sums. -/
private theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The channel-major matrix, its row means and the centred matrix -/

/-- Row c of the channel-major matrix at the position of (b, h, w) is the input at (b, c, h, w): the two arrays list the
    same entries in the same row-major order once the first two axes are exchanged, because
    ((c·64 + b)·112 + h)·112 + w = c·802816 + ((b·112 + h)·112 + w). -/
private theorem x2_apply (x : FVec Ideal S64x64x112x112 .f32) (b c : Fin 64) (h w : Fin 112) :
    Term.x2 x (ix2 c (pos b h w)) = x (ix4 b c h w) := by
  unfold Term.x2
  refine (shapeCast_apply _ _ (ix2 c (pos b h w)) (ix4 c b h w) ?_).trans ?_
  · rw [Shape.rowMajor_val_four, Shape.rowMajor_val_two]
    show ((c.val * 64 + b.val) * 112 + h.val) * 112 + w.val = c.val * 802816 + ((b.val * 112 + h.val) * 112 + w.val)
    omega
  · refine transpose_apply _ _ _ (ix4 c b h w) (ix4 b c h w) fun a => ?_
    match a with
    | ⟨0, _⟩ => rfl
    | ⟨1, _⟩ => rfl
    | ⟨2, _⟩ => rfl
    | ⟨3, _⟩ => rfl

/-- The sum of row c, started from zero, is the channel's total Σ_{b,h,w} X(b,c,h,w), a real number. -/
private theorem rowsum_apply (X : Spec.Arr) (x : FVec Ideal S64x64x112x112 .f32)
    (hx : ∀ (b c : Fin 64) (h w : Fin 112), x (ix4 b c h w) = ((X b c h w : ℝ) : EReal)) (c : Fin 64) :
    Host.reduceAdd (Term.x2 x) (constant S_ .f32 0x00000000#32) reducesTo_S64x802816_S64_d1 h_S_ (ix1 c)
      = ((Spec.total X c : ℝ) : EReal) := by
  have hR : S64x802816.Reduces [1] S64 := by decide
  rw [hostReduceAdd_apply, Ideal.hostReduceAdd_single _ hR]
  show Ideal.ofBits .f32 0x00000000#32 + ∑ k : Fin 802816, Term.x2 x (hR.lift (ix1 c) k) = _
  -- the index over row c with column k put back in is (c, k)
  have hl : ∀ k : Fin 802816, hR.lift (ix1 c) k = ix2 c k := fun k => funext fun a =>
    match a with
    | ⟨0, _⟩ => rfl
    | ⟨1, _⟩ => rfl
  rw [Consts.ofBits_zero, EReal.coe_zero, zero_add, sum_pos]
  simp only [hl, x2_apply, hx, Spec.total, coe_sum]

/-- The row mean is the channel mean: the total divided by 802816, which is the total times the real 1/802816. -/
private theorem meanV_apply (X : Spec.Arr) (x : FVec Ideal S64x64x112x112 .f32)
    (hx : ∀ (b c : Fin 64) (h w : Fin 112), x (ix4 b c h w) = ((X b c h w : ℝ) : EReal)) (c : Fin 64) :
    Term.meanV x (ix2 c 0) = ((Spec.mean X c : ℝ) : EReal) := by
  unfold Term.meanV
  rw [hostDivf_apply, broadcastInDim_scalar_apply, constant_apply, Consts.ofBits_count,
    broadcastInDim_apply _ _ _ (ix2 c 0) (ix1 c) (fun a => match a with | ⟨0, _⟩ => rfl),
    rowsum_apply X x hx c, Ideal.div_coe (y := 802816) (by norm_num), ← EReal.coe_mul]
  unfold Spec.mean
  congr 1
  ring

/-- The centred matrix at row c, position of (b, h, w), is the real number X(b,c,h,w) − mean c. -/
private theorem xcV_apply (X : Spec.Arr) (x : FVec Ideal S64x64x112x112 .f32)
    (hx : ∀ (b c : Fin 64) (h w : Fin 112), x (ix4 b c h w) = ((X b c h w : ℝ) : EReal))
    (b c : Fin 64) (h w : Fin 112) :
    Term.xcV x (ix2 c (pos b h w)) = ((X b c h w - Spec.mean X c : ℝ) : EReal) := by
  unfold Term.xcV
  rw [subf_apply, x2_apply, hx,
    broadcastInDim_apply _ _ _ (ix2 c (pos b h w)) (ix2 c 0) (fun a => match a with | ⟨0, _⟩ => rfl | ⟨1, _⟩ => rfl),
    meanV_apply X x hx, ← EReal.coe_sub]

/-! ## The covariance, the whitening matrix and the result -/

/-- The regularised covariance at (i, j): ε·δ(i,j) plus the sum over all positions of the products of the centred
    entries of rows i and j, divided by 802816.  The sum over positions is the triple sum, every term is a product of two
    reals, and dividing by 802816 multiplies by the real 1/802816; the outcome is the specification's covariance. -/
private theorem sigmaV_apply (X : Spec.Arr) (x : FVec Ideal S64x64x112x112 .f32)
    (hx : ∀ (b c : Fin 64) (h w : Fin 112), x (ix4 b c h w) = ((X b c h w : ℝ) : EReal)) (i j : Fin 64) :
    Term.sigmaV x (ix2 i j) = ((Spec.cov X i j : ℝ) : EReal) := by
  unfold Term.sigmaV
  -- the transposed centred matrix at (k, j) is the centred matrix at (j, k)
  have ht : ∀ k : Fin 802816, transpose S802816x64 [1, 0] (Term.xcV x) transposes_S64x802816_S802816x64_1_0 (ix2 k j)
      = Term.xcV x (ix2 j k) := fun k =>
    transpose_apply _ _ _ (ix2 k j) (ix2 j k) (fun a => match a with | ⟨0, _⟩ => rfl | ⟨1, _⟩ => rfl)
  rw [addf_apply, mulf_apply, hostDivf_apply, broadcastInDim_scalar_apply, broadcastInDim_scalar_apply, constant_apply,
    constant_apply, Consts.ofBits_eps, Consts.ofBits_count, Tail.eyeV_apply,
    LibPlainDot.dotGeneral_apply_of_plain dot_S64x802816_S802816x64_S64x64_1_0_0_1_n_n rfl, sum_pos]
  simp only [ht, xcV_apply X x hx, ← EReal.coe_mul, ← coe_sum]
  rw [Ideal.div_coe (y := 802816) (by norm_num), ← EReal.coe_mul, ← EReal.coe_add]
  unfold Spec.cov
  congr 1
  ring

/-- The whitening matrix is the specification's: the shared part applied to a real matrix of positive trace. -/
private theorem wmV_apply (X : Spec.Arr) (x : FVec Ideal S64x64x112x112 .f32)
    (hx : ∀ (b c : Fin 64) (h w : Fin 112), x (ix4 b c h w) = ((X b c h w : ℝ) : EReal)) (i j : Fin 64) :
    Term.wmV x (ix2 i j) = ((Spec.whiten (Spec.cov X) i j : ℝ) : EReal) :=
  Tail.whitenV_apply _ _ _ _ rfl (Term.sigmaV x) (Spec.cov X) (sigmaV_apply X x hx) (Spec.tr_cov_pos X) i j

/-- On a real input the reference's result is the specification's whitened array, entry by entry. -/
theorem outV_apply (X : Spec.Arr) (x : FVec Ideal S64x64x112x112 .f32)
    (hx : ∀ (b c : Fin 64) (h w : Fin 112), x (ix4 b c h w) = ((X b c h w : ℝ) : EReal))
    (b c : Fin 64) (h w : Fin 112) :
    Term.outV x (ix4 b c h w) = ((Spec.out X b c h w : ℝ) : EReal) := by
  unfold Term.outV
  -- entry (b, c, h, w) of the result is entry (c, b, h, w) before the exchange of the first two axes, which is the
  -- whitened matrix's row c at the position of (b, h, w)
  refine (transpose_apply _ _ _ (ix4 b c h w) (ix4 c b h w) (fun a => match a with
    | ⟨0, _⟩ => rfl | ⟨1, _⟩ => rfl | ⟨2, _⟩ => rfl | ⟨3, _⟩ => rfl)).trans ?_
  refine (shapeCast_apply _ _ (ix4 c b h w) (ix2 c (pos b h w)) ?_).trans ?_
  · rw [Shape.rowMajor_val_four, Shape.rowMajor_val_two]
    show c.val * 802816 + ((b.val * 112 + h.val) * 112 + w.val) = ((c.val * 64 + b.val) * 112 + h.val) * 112 + w.val
    omega
  · -- Σ_k W(c,k)·(X(b,k,h,w) − mean k), a sum of products of reals
    rw [LibPlainDot.dotGeneral_apply_of_plain dot_S64x64_S64x802816_S64x802816_1_0_0_1_n_n rfl]
    simp only [wmV_apply X x hx, xcV_apply X x hx, ← EReal.coe_mul, ← coe_sum]
    rfl

end Cert.ReferenceIdeal.Value

end
-- ==== Proof.Finite.lean ====
/-
  The precondition read as a fact about numbers: an input array all of whose entries have absolute value below
  +∞ is, entry by entry, the image of a real array.
-/
import proofs.«117467_j51127290691774_1_alg».proof.Defs
import proofs.«117467_j51127290691774_1_alg».proof.Proof.Gen.KernelIdeal
import proofs.«117467_j51127290691774_1_alg».proof.Proof.Gen.Pre_finite_inputs
import proofs.«117467_j51127290691774_1_alg».proof.Proof.Spec
import Idealize.ShloMosaic.Lib.ReduceAll
import Idealize.ShloMosaic.Lib.ValueIdx

noncomputable section

namespace Cert.Whiten.Finite

open Idealize.ShloMosaic Idealize.SL.Sem Idealize.ShloMosaic.ValueIdx Cert.Whiten

/-- The shape of a scalar has exactly one index: there is no coordinate to differ in. -/
private instance subsingleton_scalar_idx : Subsingleton Cert.Pre_finite_inputs.S_.Idx :=
  ⟨fun a b => funext fun d => d.elim0⟩

/-- The single-precision pattern with all exponent bits set, sign and fraction clear, denotes +∞. -/
private theorem ofBits_inf : Ideal.ofBits .f32 0x7F800000#32 = (⊤ : EReal) := by
  simp [Ideal.ofBits, Ideal.ieee]

/-- An extended real whose absolute value max x (−x) lies strictly below +∞ is neither infinity, hence the image
    of the real number x.toReal. -/
private theorem coe_toReal_of_abs_lt_top (x : EReal) (h : max x (-x) < ⊤) : x = ((x.toReal : ℝ) : EReal) := by
  refine (EReal.coe_toReal ?_ ?_).symm
  · rintro rfl
    simp at h
  · rintro rfl
    simp at h

/-- The comparison "strictly below", answered by the word 1, is the strict order of the extended reals. -/
private theorem lt_of_cmp_olt (x y : EReal) (h : Ideal.cmp .olt x y = 1#1) : x < y := by
  unfold Ideal.cmp at h
  by_contra hn
  simp [hn] at h

/-- The entry test of the precondition, |x| < +∞ answered by the word 1, makes x the image of a real number. -/
private theorem real_of_abs_test (x : EReal)
    (h : Ideal.cmp .olt (max x (-x)) (Ideal.ofBits .f32 0x7F800000#32) = 1#1) : x = ((x.toReal : ℝ) : EReal) := by
  rw [ofBits_inf] at h
  exact coe_toReal_of_abs_lt_top x (lt_of_cmp_olt _ _ h)

/-- Under the precondition the kernel program's input array is a real array, entry by entry. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ X : Spec.Arr, ∀ (b ch : Fin 64) (h w : Fin 112),
      m ((c.tc : Thread Cert.KernelIdeal.nD Cert.KernelIdeal.τ).loc Cert.KernelIdeal.main_arg0) (ix4 b ch h w)
        = ((X b ch h w : ℝ) : EReal) := by
  -- the witness: each entry's real part
  refine ⟨fun b ch h w =>
    (m ((c.tc : Thread Cert.KernelIdeal.nD Cert.KernelIdeal.τ).loc Cert.KernelIdeal.main_arg0) (ix4 b ch h w) : EReal).toReal,
    fun b ch h w => ?_⟩
  -- the predicate's single result is 1; it is a conjunction over all entries, so every entry's test is 1
  have h0 := congrFun (hpre c) ValueIdx.ix0
  dsimp only [Cert.Pre_finite_inputs.fn] at h0
  have h1 := Host.reduce_andi_all _ _ _ _ _ h0 (ix4 b ch h w)
  -- the entry's test is |x| < +∞
  exact real_of_abs_test
    (m ((c.tc : Thread Cert.KernelIdeal.nD Cert.KernelIdeal.τ).loc Cert.KernelIdeal.main_arg0) (ix4 b ch h w)) h1

end Cert.Whiten.Finite

end
-- ==== Proof.lean ====
/-
  The certificate: a two-pass whitening kernel against its array-library reference, over the extended reals.

  Both programs whiten x(b,c,h,w), 64 images of 64 channels of 112 × 112 entries.  The kernel program makes one pass over
  the images accumulating each channel's total and each pair of channels' raw second moment, forms the means and the
  covariance  (ε·I + moments/N) − mean·meanᵀ  (N = 802816), computes the whitening matrix W by five Newton–Schulz steps
  against the covariance divided by its trace, scaled by the square root of the trace's reciprocal, and in a second pass
  writes  W·x − W·mean  image by image.  The reference centres the channel-major matrix first, takes the covariance
  ε·I + (xc·xcᵀ)/N  of the centred matrix, computes W by the same steps and returns  W·xc.

  Under the precondition every entry of x is a real number.  Then the two covariances agree (the centred products expand
  into raw moments because a channel's centred entries sum to zero), the trace is at least 64·ε > 0, so its reciprocal and
  the square root are real, every Newton–Schulz iterate is a real matrix, and  W·(x − mean) = W·x − W·mean  by
  distributivity in the reals.  Both runs therefore end with the result array at the same real array: the specification's.
  The three frames: the two kernel programs' are the generated ones; the reference's is its run with the result dropped.
  The idealization rewrote nothing, so there is nothing to preserve.
-/
import proofs.«117467_j51127290691774_1_alg».proof.Defs
import proofs.«117467_j51127290691774_1_alg».proof.Proof.Gen.Kernel
import proofs.«117467_j51127290691774_1_alg».proof.Proof.Gen.Kernel.Skeleton
import proofs.«117467_j51127290691774_1_alg».proof.Proof.Gen.Kernel.Launch
import proofs.«117467_j51127290691774_1_alg».proof.Proof.Gen.Kernel.Points
import proofs.«117467_j51127290691774_1_alg».proof.Proof.Gen.Kernel.Frame
import proofs.«117467_j51127290691774_1_alg».proof.Proof.Gen.KernelIdeal
import proofs.«117467_j51127290691774_1_alg».proof.Proof.Gen.KernelIdeal.Skeleton
import proofs.«117467_j51127290691774_1_alg».proof.Proof.Gen.KernelIdeal.Launch
import proofs.«117467_j51127290691774_1_alg».proof.Proof.Gen.KernelIdeal.Points
import proofs.«117467_j51127290691774_1_alg».proof.Proof.Gen.KernelIdeal.Frame
import proofs.«117467_j51127290691774_1_alg».proof.Proof.Gen.ReferenceIdeal
import proofs.«117467_j51127290691774_1_alg».proof.Proof.Gen.Pre_finite_inputs
import proofs.«117467_j51127290691774_1_alg».proof.Proof.KerValue
import proofs.«117467_j51127290691774_1_alg».proof.Proof.RefRun
import proofs.«117467_j51127290691774_1_alg».proof.Proof.RefValue
import proofs.«117467_j51127290691774_1_alg».proof.Proof.Finite
import Idealize.ShloMosaic.Adequacy
import Idealize.ShloMosaic.Init

noncomputable section

namespace Cert.Proof

open Idealize.ShloMosaic Idealize.SL.Sem Idealize.ShloMosaic.ValueIdx Cert.Whiten

/-- The word-level kernel program runs and leaves its input as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its input as launched: its run, the result dropped. -/
theorem frame_reference : Cert.frame_ReferenceIdeal := fun m ρ _ =>
  (θ_run Cert.ReferenceIdeal.defs _ _).mono (fun _ h c => (h c).2) (Cert.ReferenceIdeal.Run.run m ρ)

/-- The idealization rewrote no operation. -/
theorem preserves : Cert.preserves_Kernel_KernelIdeal := trivial

/-- From inputs that agree and are finite, both programs end with the result array at the whitened real array. -/
theorem algebraic : Cert.algebraic_KernelIdeal_ReferenceIdeal := by
  intro m ρ m' ρ' hpre hagree
  choose X hX using fun c => Cert.Whiten.Finite.real_of_pre m hpre c
  refine ⟨fun c idx => ((Spec.out (X c) (idx 0) (idx 1) (idx 2) (idx 3) : ℝ) : EReal), ?_, ?_⟩
  · refine (θ_run Cert.KernelIdeal.defs _ _).mono (fun r h c => ⟨(h c).1.trans ?_, (h c).2⟩)
      (Cert.KernelIdeal.Launch.run_value m ρ)
    funext idx
    obtain ⟨b, ch, h', w, rfl⟩ : ∃ (b ch : Fin 64) (h' w : Fin 112), idx = ix4 b ch h' w :=
      ⟨_, _, _, _, eq_ix4 (n0 := 64) (n1 := 64) (n2 := 112) (n3 := 112) idx⟩
    exact Cert.KernelIdeal.Value.result_apply m ρ c (X c) (hX c) b ch h' w
  · refine (θ_run Cert.ReferenceIdeal.defs _ _).mono (fun r h c => ⟨(h c).1.trans ?_, (h c).2⟩)
      (Cert.ReferenceIdeal.Run.run m' ρ')
    rw [hagree c]
    funext idx
    obtain ⟨b, ch, h', w, rfl⟩ : ∃ (b ch : Fin 64) (h' w : Fin 112), idx = ix4 b ch h' w :=
      ⟨_, _, _, _, eq_ix4 (n0 := 64) (n1 := 64) (n2 := 112) (n3 := 112) idx⟩
    exact Cert.ReferenceIdeal.Value.outV_apply (X c) _ (hX c) b ch h' w

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
